-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S17000x128 : Shape := ⟨2, ![17000, 128]⟩
abbrev S17000x1 : Shape := ⟨2, ![17000, 1]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S17000x64 : Shape := ⟨2, ![17000, 64]⟩
abbrev S1x64 : Shape := ⟨2, ![1, 64]⟩

abbrev nBuf : Space → Nat
  | .hbm => 81
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x64, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S17000x128, .f32⟩
  | .local _ .vmem, ⟨6, _⟩ => ⟨S17000x128, .f32⟩
  | .local _ .vmem, ⟨7, _⟩ => ⟨S17000x1, .f32⟩
  | .local _ .vmem, ⟨8, _⟩ => ⟨S17000x1, .f32⟩
  | .local _ .vmem, ⟨9, _⟩ => ⟨S17000x128, .f32⟩
  | .local _ .vmem, ⟨10, _⟩ => ⟨S17000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S17000x64, .f32⟩
  | .local _ .vmem, ⟨22, _⟩ => ⟨S17000x64, .f32⟩
  | .local _ .vmem, ⟨23, _⟩ => ⟨S17000x1, .f32⟩
  | .local _ .vmem, ⟨24, _⟩ => ⟨S17000x1, .f32⟩
  | .local _ .vmem, ⟨25, _⟩ => ⟨S17000x64, .f32⟩
  | .local _ .vmem, ⟨26, _⟩ => ⟨S17000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S17000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S17000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S17000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S17000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S17000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S17000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S17000x128_S17000x128_0_0 : ∀ a, (![0, 0] : Fin 2 → Nat) a + S17000x128.size a ≤ S17000x128.size a
  h_S17000x128 : 0 < S17000x128.numel
  shapeCasts_S17000x128_S17000x128 : S17000x128.ShapeCasts S17000x128
  inb_S17000x1_S17000x1_0_0 : ∀ a, (![0, 0] : Fin 2 → Nat) a + S17000x1.size a ≤ S17000x1.size a
  h_S17000x1 : 0 < S17000x1.numel
  shapeCasts_S17000x1_S17000x1 : S17000x1.ShapeCasts S17000x1
  broadcasts_S17000x1_S17000x128 : S17000x1.Broadcasts S17000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S17000x64_S17000x64_0_0 : ∀ a, (![0, 0] : Fin 2 → Nat) a + S17000x64.size a ≤ S17000x64.size a
  h_S17000x64 : 0 < S17000x64.numel
  shapeCasts_S17000x64_S17000x64 : S17000x64.ShapeCasts S17000x64
  broadcasts_S17000x1_S17000x64 : S17000x1.Broadcasts S17000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S17000x128.size a ≤ S850000x128.size a
  hwx1_0 : ∀ i : grid1.Coords, EltTy.bits .f32 = 32 ∨ (Rect.block (s := S850000x128) S17000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S17000x1.size a ≤ S850000x1.size a
  hwx1_1 : ∀ i : grid1.Coords, EltTy.bits .f32 = 32 ∨ (Rect.block (s := S850000x1) S17000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S17000x128.size a ≤ S850000x128.size a
  hwx1_2 : ∀ i : grid1.Coords, EltTy.bits .f32 = 32 ∨ (Rect.block (s := S850000x128) S17000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S17000x64.size a ≤ S850000x64.size a
  hwx4_0 : ∀ i : grid4.Coords, EltTy.bits .f32 = 32 ∨ (Rect.block (s := S850000x64) S17000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S17000x1.size a ≤ S850000x1.size a
  hwx4_1 : ∀ i : grid4.Coords, EltTy.bits .f32 = 32 ∨ (Rect.block (s := S850000x1) S17000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S17000x64.size a ≤ S850000x64.size a
  hwx4_2 : ∀ i : grid4.Coords, EltTy.bits .f32 = 32 ∨ (Rect.block (s := S850000x64) S17000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S17000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S17000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S17000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S17000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S17000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S17000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000, .i32⟩
  | .hbm, ⟨68, _⟩ => ⟨S850000, .i32⟩
  | .hbm, ⟨69, _⟩ => ⟨S850000, .i32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S50000x64, .f32⟩
  | .hbm, ⟨104, _⟩ => ⟨S_, .i32⟩
  | .hbm, ⟨105, _⟩ => ⟨S850000, .i32⟩
  | .hbm, ⟨106, _⟩ => ⟨S850000, .i1⟩
  | .hbm, ⟨107, _⟩ => ⟨S_, .i32⟩
  | .hbm, ⟨108, _⟩ => ⟨S850000, .i32⟩
  | .hbm, ⟨109, _⟩ => ⟨S850000, .i32⟩
  | .hbm, ⟨110, _⟩ => ⟨S850000, .i32⟩
  | .hbm, ⟨111, _⟩ => ⟨S850000x1, .i32⟩
  | .hbm, ⟨112, _⟩ => ⟨S850000x64, .f32⟩
  | .hbm, ⟨113, _⟩ => ⟨S850000x1, .f32⟩
  | .hbm, ⟨114, _⟩ => ⟨S850000x64, .f32⟩
  | .hbm, ⟨115, _⟩ => ⟨S850000x64, .f32⟩
  | .hbm, ⟨116, _⟩ => ⟨S_, .f32⟩
  | .hbm, ⟨117, _⟩ => ⟨S50000x64, .f32⟩
  | .hbm, ⟨118, _⟩ => ⟨S850000x1, .i32⟩
  | .hbm, ⟨119, _⟩ => ⟨S50000x64, .f32⟩
  | .hbm, ⟨120, _⟩ => ⟨S1x64, .f32⟩
  | .hbm, ⟨121, _⟩ => ⟨S50000x64, .f32⟩
  | .hbm, ⟨122, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  A two-layer graph convolution, written entry by entry.

  Each layer multiplies the node features by a weight matrix, moves every edge's source row to the edge, scales the
  row by the edge's normalisation coefficient, adds the rows of the edges that end in a node, and adds a bias (the
  first layer then applies the hyperbolic tangent). The gather and the sum over edges are the same operations in both
  programs; what differs is how the three dense steps are laid out. Here each dense step is ONE function of whole
  arrays, read at an index of its result:

  * a matrix product: entry (r, c) is the sum over k of x (r, k) · w (k, c);
  * a row scaling: entry (e, f) is g (e, f) · n (e, 0), the coefficient a one-column array;
  * a bias: entry (r, f) is a (r, f) + b (0, f), the bias a one-row array (and its hyperbolic tangent).

  Values are extended reals; nothing here needs a law beyond reading a sum or a product at an index.
-/
import Idealize.ShloMosaic.PureOps.Ideal
import Idealize.ShloMosaic.Lib.ValueIdx

noncomputable section

open scoped BigOperators

namespace Cert.Gcn

open Idealize.ShloMosaic Idealize.ShloMosaic.ValueIdx

/-- The shapes of the dense steps: node features (50000 nodes), edge messages (850000 edges with the self loops),
    weights, a one-column coefficient array and one-row biases. -/
abbrev Nodes128 : Shape := ⟨2, ![50000, 128]⟩
abbrev Nodes64 : Shape := ⟨2, ![50000, 64]⟩
abbrev Edges128 : Shape := ⟨2, ![850000, 128]⟩
abbrev Edges64 : Shape := ⟨2, ![850000, 64]⟩
abbrev EdgeCol : Shape := ⟨2, ![850000, 1]⟩
abbrev Sq128 : Shape := ⟨2, ![128, 128]⟩
abbrev W128x64 : Shape := ⟨2, ![128, 64]⟩
abbrev Row128 : Shape := ⟨2, ![1, 128]⟩
abbrev Row64 : Shape := ⟨2, ![1, 64]⟩

/-- The first layer's matrix product: entry (r, c) is the sum over k of x (r, k) · w (k, c). -/
def matmul128 (x : FVec Ideal Nodes128 .f32) (w : FVec Ideal Sq128 .f32) : FVec Ideal Nodes128 .f32 :=
  fun i => ∑ k : Fin 128, x (ix2 (i 0) k) * w (ix2 k (i 1))

/-- The second layer's matrix product, 128 features down to 64. -/
def matmul64 (h : FVec Ideal Nodes128 .f32) (w : FVec Ideal W128x64 .f32) : FVec Ideal Nodes64 .f32 :=
  fun i => ∑ k : Fin 128, h (ix2 (i 0) k) * w (ix2 k (i 1))

/-- Every row of the edge messages times that edge's coefficient. -/
def scale128 (g : FVec Ideal Edges128 .f32) (n : FVec Ideal EdgeCol .f32) : FVec Ideal Edges128 .f32 :=
  fun i => g i * n (ix2 (i 0) 0)

def scale64 (g : FVec Ideal Edges64 .f32) (n : FVec Ideal EdgeCol .f32) : FVec Ideal Edges64 .f32 :=
  fun i => g i * n (ix2 (i 0) 0)

/-- The first layer's epilogue: the bias added to every row, then the hyperbolic tangent. -/
def biasTanh (a : FVec Ideal Nodes128 .f32) (b : FVec Ideal Row128 .f32) : FVec Ideal Nodes128 .f32 :=
  fun i => Ideal.tanh (a i + b (ix2 0 (i 1)))

/-- The second layer's epilogue: the bias added to every row. -/
def bias64 (a : FVec Ideal Nodes64 .f32) (b : FVec Ideal Row64 .f32) : FVec Ideal Nodes64 .f32 :=
  fun i => a i + b (ix2 0 (i 1))

end Cert.Gcn

end
-- ==== Proof.HostStretches.lean ====
/-
  The host operations between the kernel regions, read as functions.

  The program's host side builds, from the edge list, the source and destination node of every edge (the given edges
  followed by one self loop per node), each node's degree (a sum of ones over the edges that end in it), the
  reciprocal square root of the positive degrees, and from these one coefficient per edge: the product of the two
  end nodes' values. Between the regions it gathers rows by the source nodes and adds rows into the destination nodes.
  Each stretch of operations is read here at the buffers later steps use, as a function of the contents the stretch
  starts from, whatever they are.
-/
import proofs.«131999_j66125316489524_1_alg».proof.Proof.Gen.KernelIdeal.Launch
import Idealize.ShloMosaic.Lib.StableHlo.Run
import Idealize.ShloMosaic.PureOps.Ideal

noncomputable section

open Idealize.ShloMosaic Idealize.ShloMosaic.TcCoe Idealize.ShloMosaic.StableHlo

namespace Cert.KernelIdeal.Gcn

open Cert.KernelIdeal Cert.KernelIdeal.Gen

/-- The source node of every edge: row 0 of the edge list, then the nodes themselves (the self loops). -/
abbrev srcOf (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The destination node of every edge: row 1 of the edge list, then the nodes themselves. -/
abbrev dstOf (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- The index column a row gather takes: a negative entry is wrapped by the node count; laid out as one column. -/
abbrev wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- A node's degree: one for every edge that ends in it. -/
abbrev degOf (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- The reciprocal square root of a positive degree, zero otherwise. -/
abbrev dinvOf (d : IVec S850000 32) : FVec Ideal S50000 .f32 :=
  select (cmpf .ogt (degOf d) (broadcastInDim S50000 ![] bcast_S_S50000 (constant (F := Ideal) S_ .f32 0x00000000#32)))
    (Host.rsqrt (degOf d))
    (broadcastInDim S50000 ![] bcast_S_S50000 (id (constant (F := Ideal) S_ .f32 0x00000000#32)))

/-- An edge's coefficient: its source's value times its destination's. -/
abbrev normOf (s d : IVec S850000 32) : FVec Ideal S850000 .f32 :=
  mulf (Host.gather gather_S50000_S850000x1_S850000_n_0_n_n_0_1_1 (dinvOf d) (wrapCol s))
    (Host.gather gather_S50000_S850000x1_S850000_n_0_n_n_0_1_1 (dinvOf d) (wrapCol d))

variable (X : Valuation τ sig (Elt Ideal))

/-! ## Before the first region -/

theorem first_src : after hostOps0 X (Proc.devRef .tc main_v5) = srcOf (X (Proc.devRef .tc main_arg1)) := by
  after_results <;> rfl

theorem first_dst : after hostOps0 X (Proc.devRef .tc main_v6) = dstOf (X (Proc.devRef .tc main_arg1)) := by
  after_results <;> rfl

theorem first_pos : after hostOps0 X (Proc.devRef .tc main_v12)
    = cmpf .ogt (degOf (dstOf (X (Proc.devRef .tc main_arg1)))) (broadcastInDim S50000 ![] bcast_S_S50000 (constant (F := Ideal) S_ .f32 0x00000000#32)) := by
  after_results <;> rfl

theorem first_rsqrt : after hostOps0 X (Proc.devRef .tc main_v13) = Host.rsqrt (degOf (dstOf (X (Proc.devRef .tc main_arg1)))) := by
  after_results <;> rfl

theorem first_zero : after hostOps0 X (Proc.devRef .tc main_cst_2) = constant (F := Ideal) S_ .f32 0x00000000#32 := by
  after_results <;> rfl

theorem where_dinv : after hostOps0_1 X (Proc.devRef .tc main_v14)
    = select (X (Proc.devRef .tc main_v12)) (X (Proc.devRef .tc main_v13))
        (broadcastInDim S50000 ![] bcast_S_S50000 (id (X (Proc.devRef .tc main_cst_2)))) := by
  after_results <;> rfl

set_option maxHeartbeats 2000000 in
theorem second_norm : after hostOps0_2 X (Proc.devRef .tc main_v30)
    = (shapeCast S850000x1
        (mulf (Host.gather gather_S50000_S850000x1_S850000_n_0_n_n_0_1_1 (X (Proc.devRef .tc main_v14) : FVec Ideal S50000 .f32) (wrapCol (X (Proc.devRef .tc main_v5))))
          (Host.gather gather_S50000_S850000x1_S850000_n_0_n_n_0_1_1 (X (Proc.devRef .tc main_v14) : FVec Ideal S50000 .f32) (wrapCol (X (Proc.devRef .tc main_v6)))))
        shapeCasts_S850000_S850000x1 : FVec Ideal S850000x1 .f32) := by
  after_results_simp <;> rfl

/-! ## Between the regions -/

theorem gather128 : after hostOps1 X (Proc.devRef .tc main_v38)
    = Host.gather gather_S50000x128_S850000x1_S850000x128_1_0_n_n_0_1_1128 (X (Proc.devRef .tc main_v31)) (wrapCol (X (Proc.devRef .tc main_v5))) := by
  after_results <;> rfl

theorem scatter128 : after hostOps2 X (Proc.devRef .tc main_v42)
    = Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 (X (Proc.devRef .tc main_v6)))
        (X (Proc.devRef .tc main_v39)) := by
  after_results <;> rfl

theorem bias128_row : after hostOps2 X (Proc.devRef .tc main_v43)
    = shapeCast S1x128 (X (Proc.devRef .tc main_arg3)) shapeCasts_S128_S1x128 := by
  after_results <;> rfl

theorem gather64 : after hostOps4 X (Proc.devRef .tc main_v52)
    = Host.gather gather_S50000x64_S850000x1_S850000x64_1_0_n_n_0_1_164 (X (Proc.devRef .tc main_v45)) (wrapCol (X (Proc.devRef .tc main_v5))) := by
  after_results <;> rfl

theorem scatter64 : after hostOps5 X (Proc.devRef .tc main_v56)
    = Host.scatterAdd scatter_S50000x64_S850000x1_S850000x64_1_0_0_1
        (broadcastInDim S50000x64 ![] bcast_S_S50000x64 (constant (F := Ideal) S_ .f32 0x00000000#32))
        (broadcastInDim S850000x1 ![0] bcast_S850000_S850000x1_0 (X (Proc.devRef .tc main_v6)))
        (X (Proc.devRef .tc main_v53)) := by
  after_results <;> rfl

theorem bias64_row : after hostOps5 X (Proc.devRef .tc main_v57)
    = shapeCast S1x64 (X (Proc.devRef .tc main_arg5)) shapeCasts_S64_S1x64 := by
  after_results <;> rfl

end Cert.KernelIdeal.Gcn

end
-- ==== Proof.Carry.lean ====
/-
  What the later steps read is what the earlier steps wrote.

  The program's memory passes through fourteen boundaries: a host stretch rewrites only the buffers its operations
  write, and a region rewrites only its output array. So a buffer read late in the program holds what it held at the
  boundary after its last writer: the edge lists and the coefficient column from before the first region, the
  weights and biases from the launch. Each such fact is a walk back through the boundaries, one step per boundary.
-/
import proofs.«131999_j66125316489524_1_alg».proof.Proof.Gen.KernelIdeal.Frame
import Idealize.ShloMosaic.PureOps.Ideal

set_option maxRecDepth 16384

noncomputable section

open Idealize.ShloMosaic Idealize.ShloMosaic.TcCoe Idealize.SL.Sem
open Idealize.ShloMosaic.Pipeline (Dat)

namespace Cert.KernelIdeal.Gcn

open Cert.KernelIdeal Cert.KernelIdeal.Gen

/-- A buffer that no operation of a host stretch writes keeps its contents across the stretch. -/
macro "stretch_keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

/-! ## The first region's inputs are the launch contents -/

/-- The node features reach the first region as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c : Thread nD τ).loc main_arg0) := rfl

/-- The first weight matrix reaches the first region as launched. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = m ((c : Thread nD τ).loc main_arg2) := rfl

/-- The edge list at the launch. -/
theorem W0_arg1 (c : Dev nD) : W0 m ρ c (Proc.devRef .tc main_arg1) = m ((c : Thread nD τ).loc main_arg1) :=
  calc W0 m ρ c (Proc.devRef .tc main_arg1)
    _ = m ((c : Thread nD τ).loc main_arg1) := rfl

/-! ## The edge lists and the coefficient column, from before the first region -/

/-- The source nodes after the first region. -/
theorem W4_src (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- The source nodes after the fourth region. -/
theorem W9_src (c : Dev nD) : W9 m ρ c (Proc.devRef .tc main_v5) = W3 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by stretch_keeps hostOps2
    _ = W5 m ρ c (Proc.devRef .tc main_v5) := W6_of_ne m ρ c main_v5 (by decide)
    _ = W4 m ρ c (Proc.devRef .tc main_v5) := by stretch_keeps hostOps1
    _ = W3 m ρ c (Proc.devRef .tc main_v5) := W4_of_ne m ρ c main_v5 (by decide)

/-- The destination nodes after the second region. -/
theorem W6_dst (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by stretch_keeps hostOps1
    _ = W3 m ρ c (Proc.devRef .tc main_v6) := W4_of_ne m ρ c main_v6 (by decide)

/-- The destination nodes after the fifth region. -/
theorem W11_dst (c : Dev nD) : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by stretch_keeps hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by stretch_keeps hostOps2
    _ = W5 m ρ c (Proc.devRef .tc main_v6) := W6_of_ne m ρ c main_v6 (by decide)
    _ = W4 m ρ c (Proc.devRef .tc main_v6) := by stretch_keeps hostOps1
    _ = W3 m ρ c (Proc.devRef .tc main_v6) := W4_of_ne m ρ c main_v6 (by decide)

/-- The coefficient column at the second region's entry. -/
theorem W5_norm (c : Dev nD) : W5 m ρ c (Proc.devRef .tc main_v30) = W3 m ρ c (Proc.devRef .tc main_v30) :=
  calc W5 m ρ c (Proc.devRef .tc main_v30)
    _ = W4 m ρ c (Proc.devRef .tc main_v30) := by stretch_keeps hostOps1
    _ = W3 m ρ c (Proc.devRef .tc main_v30) := W4_of_ne m ρ c main_v30 (by decide)

/-- The coefficient column at the fifth region's entry: the second region read it through an input window and left it as it was. -/
theorem W10_norm (c : Dev nD) : W10 m ρ c (Proc.devRef .tc main_v30) = W3 m ρ c (Proc.devRef .tc main_v30) :=
  calc W10 m ρ c (Proc.devRef .tc main_v30)
    _ = W9 m ρ c (Proc.devRef .tc main_v30) := by stretch_keeps hostOps4
    _ = W8 m ρ c (Proc.devRef .tc main_v30) := W9_of_ne m ρ c main_v30 (by decide)
    _ = W7 m ρ c (Proc.devRef .tc main_v30) := W8_of_ne m ρ c main_v30 (by decide)
    _ = W6 m ρ c (Proc.devRef .tc main_v30) := by stretch_keeps hostOps2
    _ = W5 m ρ c (Proc.devRef .tc main_v30) := (W6_arr m ρ c 1).trans (((dat1 (V5 m ρ) c).arrAt_in 1 rfl _).trans (A_eq1 (V5 m ρ) c 1))
    _ = W4 m ρ c (Proc.devRef .tc main_v30) := by stretch_keeps hostOps1
    _ = W3 m ρ c (Proc.devRef .tc main_v30) := W4_of_ne m ρ c main_v30 (by decide)

/-! ## The biases and the second weight matrix, from the launch -/

/-- The first bias after the second region. -/
theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by stretch_keeps hostOps1
    _ = W3 m ρ c (Proc.devRef .tc main_arg3) := W4_of_ne m ρ c main_arg3 (by decide)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c : Thread nD τ).loc main_arg3) := rfl

/-- The second weight matrix at the fourth region's entry. -/
theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by stretch_keeps hostOps2
    _ = W5 m ρ c (Proc.devRef .tc main_arg4) := W6_of_ne m ρ c main_arg4 (by decide)
    _ = W4 m ρ c (Proc.devRef .tc main_arg4) := by stretch_keeps hostOps1
    _ = W3 m ρ c (Proc.devRef .tc main_arg4) := W4_of_ne m ρ c main_arg4 (by decide)
    _ = W2 m ρ c (Proc.devRef .tc main_arg4) := by stretch_keeps hostOps0_2
    _ = W1 m ρ c (Proc.devRef .tc main_arg4) := by stretch_keeps hostOps0_1
    _ = W0 m ρ c (Proc.devRef .tc main_arg4) := by stretch_keeps hostOps0
    _ = m ((c : Thread nD τ).loc main_arg4) := rfl

/-- The second bias after the fifth region. -/
theorem W11_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := by stretch_keeps hostOps4
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by stretch_keeps hostOps2
    _ = W5 m ρ c (Proc.devRef .tc main_arg5) := W6_of_ne m ρ c main_arg5 (by decide)
    _ = W4 m ρ c (Proc.devRef .tc main_arg5) := by stretch_keeps hostOps1
    _ = W3 m ρ c (Proc.devRef .tc main_arg5) := W4_of_ne m ρ c main_arg5 (by decide)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = m ((c : Thread nD τ).loc main_arg5) := rfl

/-! ## The edge lists before the first region, through the two later stretches -/

/-- The source nodes pass the second and third stretch. -/
theorem W3_src (c : Dev nD) : W3 m ρ c (Proc.devRef .tc main_v5) = W1 m ρ c (Proc.devRef .tc main_v5) :=
  calc W3 m ρ c (Proc.devRef .tc main_v5)
    _ = W2 m ρ c (Proc.devRef .tc main_v5) := by stretch_keeps hostOps0_2
    _ = W1 m ρ c (Proc.devRef .tc main_v5) := by stretch_keeps hostOps0_1

/-- The destination nodes pass the second and third stretch. -/
theorem W3_dst (c : Dev nD) : W3 m ρ c (Proc.devRef .tc main_v6) = W1 m ρ c (Proc.devRef .tc main_v6) :=
  calc W3 m ρ c (Proc.devRef .tc main_v6)
    _ = W2 m ρ c (Proc.devRef .tc main_v6) := by stretch_keeps hostOps0_2
    _ = W1 m ρ c (Proc.devRef .tc main_v6) := by stretch_keeps hostOps0_1

/-- The source nodes pass the second stretch. -/
theorem W2_src (c : Dev nD) : W2 m ρ c (Proc.devRef .tc main_v5) = W1 m ρ c (Proc.devRef .tc main_v5) :=
  calc W2 m ρ c (Proc.devRef .tc main_v5)
    _ = W1 m ρ c (Proc.devRef .tc main_v5) := by stretch_keeps hostOps0_1

/-- The destination nodes pass the second stretch. -/
theorem W2_dst (c : Dev nD) : W2 m ρ c (Proc.devRef .tc main_v6) = W1 m ρ c (Proc.devRef .tc main_v6) :=
  calc W2 m ρ c (Proc.devRef .tc main_v6)
    _ = W1 m ρ c (Proc.devRef .tc main_v6) := by stretch_keeps hostOps0_1

end Cert.KernelIdeal.Gcn

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Region0.lean ====
/-
  The first layer's matrix product, from blocks to the whole array.

  The kernel walks the node features in ten blocks of 5000 rows. At each point it holds one block of rows and the whole
  weight matrix, and leaves in the output's block the products of those rows with the weight matrix's columns: entry
  (p, q) of the block is the sum over k of (row p of the block, column k) times (weight row k, column q). Row p of
  block t is row 5000·t + p of the array, so the block written at point t is rows 5000·t … 5000·t + 4999 of the
  whole-array product, and the ten blocks together are every row. Changing the number format of an operand does
  nothing to an extended real, and accumulating into zero is the plain sum.
-/
import proofs.«131999_j66125316489524_1_alg».proof.Proof.Gen.KernelIdeal.Frame
import proofs.«131999_j66125316489524_1_alg».proof.Proof.Spec
import proofs.«131999_j66125316489524_1_alg».proof.Proof.LibContraction
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Gcn
open Cert.KernelIdeal Cert.KernelIdeal.Gen Cert.Gcn Cert.Lib.Contraction
variable (V : (c : Dev nD) → (b : Ref sig .tc) → Buf (Elt Ideal) ((c : Thread nD τ).loc b))

/-! ## The product inside one block -/

/-- The left operand's row coordinate is the result's row, at every contraction position. -/
theorem lhs0_row (j : S5000x128.Idx) (k : dot_S5000x128_S128x128_S5000x128_1_0_0_1_n_n.contr.Idx) :
    (dot_S5000x128_S128x128_S5000x128_1_0_0_1_n_n.lhsIdx j k 0).val = (j 0).val :=
  lhs_free dot_S5000x128_S128x128_S5000x128_1_0_0_1_n_n rfl rfl j k (by decide)

/-- The left operand's column coordinate is the contraction position. -/
theorem lhs0_col (j : S5000x128.Idx) (i : Fin 128) :
    (dot_S5000x128_S128x128_S5000x128_1_0_0_1_n_n.lhsIdx j
      ((contrFin dot_S5000x128_S128x128_S5000x128_1_0_0_1_n_n (cl := 1) rfl 128 rfl).symm i) 1).val = i.val :=
  lhs_contracted dot_S5000x128_S128x128_S5000x128_1_0_0_1_n_n rfl 128 rfl j i

/-- The right operand's row coordinate is the contraction position. -/
theorem rhs0_row (j : S5000x128.Idx) (i : Fin 128) :
    (dot_S5000x128_S128x128_S5000x128_1_0_0_1_n_n.rhsIdx j
      ((contrFin dot_S5000x128_S128x128_S5000x128_1_0_0_1_n_n (cl := 1) rfl 128 rfl).symm i) 0).val = i.val :=
  rhs_contracted dot_S5000x128_S128x128_S5000x128_1_0_0_1_n_n rfl rfl 128 rfl j i

/-- The right operand's column coordinate is the result's column, at every contraction position. -/
theorem rhs0_col (j : S5000x128.Idx) (k : dot_S5000x128_S128x128_S5000x128_1_0_0_1_n_n.contr.Idx) :
    (dot_S5000x128_S128x128_S5000x128_1_0_0_1_n_n.rhsIdx j k 1).val = (j 1).val :=
  rhs_free dot_S5000x128_S128x128_S5000x128_1_0_0_1_n_n rfl rfl rfl rfl j k (by decide)

/-- The body's arithmetic at entry (p, q) of its block: the sum over k of x0 (p, k) · x1 (k, q). A change of number
    format is the identity on extended reals and the accumulator is zero, so what is left is the contraction's sum,
    its 128 positions numbered, each operand read at the coordinates the dimension numbers give. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [sum_contr dot_S5000x128_S128x128_S5000x128_1_0_0_1_n_n (cl := 1) rfl 128 rfl]
  refine Finset.sum_congr rfl fun k _ => ?_
  rw [truncf_apply, truncf_apply]
  congr 2
  · funext a
    apply Fin.ext
    match a with
    | ⟨0, _⟩ => exact lhs0_row _ _
    | ⟨1, _⟩ => exact lhs0_col _ k
  · funext a
    apply Fin.ext
    match a with
    | ⟨0, _⟩ => exact rhs0_row _ k
    | ⟨1, _⟩ => exact rhs0_col _ _

/-- The whole-array product at an index whose coordinates are known by value. -/
theorem matmul128_at (x : FVec Ideal Nodes128 .f32) (w : FVec Ideal Sq128 .f32) (i : Nodes128.Idx) (r : Fin 50000) (q : Fin 128)
    (h0 : (i 0).val = r.val) (h1 : (i 1).val = q.val) :
    matmul128 x w i = ∑ k : Fin 128, x (ix2 r k) * w (ix2 k q) := by
  have e : i = ix2 r q := by
    funext a
    apply Fin.ext
    match a with
    | ⟨0, _⟩ => exact h0
    | ⟨1, _⟩ => exact h1
  rw [e]
  rfl

/-! ## The blocks as parts of the arrays -/

theorem zero_offsets0 : (![0, 0] : Fin 2 → Nat) = fun _ => 0 :=
  funext fun a => by match a with | ⟨0, _⟩ => rfl | ⟨1, _⟩ => rfl

/-- The index maps over the grid: the row operand's and the result's block index is (t, 0); the weight matrix's is
    (0, 0) at every point. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the row operand's block at point t is entry (5000·t + p, k) of its array. -/
theorem rows0_apply (c : Dev nD) (t : Fin cfg0.N) (p : Fin 5000) (k : Fin 128) (r : Fin 50000)
    (hr : r.val = t.val * 5000 + p.val) :
    (iblk0 (F := Ideal) V c 0 t : Vec Ideal S5000x128 .f32) (ix2 p k)
      = (V c main_arg0 : S50000x128.Idx → Elt Ideal .f32) (ix2 r k) := by
  obtain ⟨e0, e1, -⟩ := block_index0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight operand's block at every point is the whole weight matrix. -/
theorem weights0_apply (c : Dev nD) (t : Fin cfg0.N) (k : Fin 128) (q : Fin 128) :
    (iblk0 (F := Ideal) V c 1 t : Vec Ideal S128x128 .f32) (ix2 k q)
      = (V c main_arg2 : S128x128.Idx → Elt Ideal .f32) (ix2 k q) := by
  obtain ⟨-, -, e2, e3, -⟩ := block_index0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-! ## What a point writes back -/

/-- The block written back at point t is block t of the whole-array product of the two arrays as the region
    found them: entry (p, q) of the block is the product's entry (5000·t + p, q). -/
theorem flushed0_eq (c : Dev nD) (t : Fin cfg0.N) :
    (dat0 (F := Ideal) V c).flushed 2 t
      = ((cfg0.win 2).blk t).view.read (Elt Ideal) (matmul128 (V c main_arg0) (V c main_arg2)) := by
  show (cfg0.win 2).cut (grid0.coords t) ((dat0 V c).after 2 t) = _
  rw [after0_2]
  unfold out0_2
  rw [View.canon_unit_zero zero_offsets0]
  simp only [View.ld_unit_zero (S := S5000x128) zero_offsets0, View.ld_unit_zero (S := S128x128) zero_offsets0]
  have hN : grid0.N = 10 := N_0
  have ht : t.val < 10 := hN ▸ t.isLt
  obtain ⟨-, -, -, -, e4, e5⟩ := block_index0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = matmul128 (V c main_arg0) (V c main_arg2) (((cfg0.win 2).blk t).view.emb (ix2 p q))
  have hp : p.val < 5000 := p.isLt
  refine (pay0_apply (iblk0 V c 0 t) (iblk0 V c 1 t) p q).trans ?_
  refine Eq.trans ?_ (matmul128_at (V c main_arg0) (V c main_arg2) _ ⟨t.val * 5000 + p.val, by omega⟩ q ?_ ?_).symm
  · refine Finset.sum_congr rfl fun k _ => ?_
    rw [rows0_apply V c t p k ⟨t.val * 5000 + p.val, by omega⟩ rfl, weights0_apply V c t k q]
  · show win0_2.index t (0 : Fin 2) * 5000 + 1 * p.val = t.val * 5000 + p.val
    rw [e4]; omega
  · show win0_2.index t (1 : Fin 2) * 128 + 1 * q.val = q.val
    rw [e5]; omega

/-! ## The blocks cover the array -/

/-- An index of the result is in point t's block exactly when each coordinate is in the block's range. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Row r of the result lies in the block of point r / 5000, and every point writes its block back. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have hlt : (i 0).val / 5000 < grid0.N := by rw [hN]; omega
  obtain ⟨-, -, -, -, e4, e5⟩ := block_index0 ⟨(i 0).val / 5000, hlt⟩
  refine ⟨⟨(i 0).val / 5000, hlt⟩, flush0_2 _, ?_⟩
  rw [mem_block0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]
    omega

/-! ## The array after the run -/

/-- After the region's ten points the result array is the whole-array product of the two input arrays as the
    region found them. -/
theorem arr0 (c : Dev nD) :
    (dat0 (F := Ideal) V c).arrAt 2 cfg0.N = matmul128 (V c main_arg0) (V c main_arg2) :=
  (dat0 (F := Ideal) V c).arrAt_eq_of_cover 2 (matmul128 (V c main_arg0) (V c main_arg2))
    (fun t _ => flushed0_eq V c t) (cover0)

end Cert.KernelIdeal.Gcn
end
-- ==== Proof.Region1.lean ====
import proofs.«131999_j66125316489524_1_alg».proof.Proof.Gen.KernelIdeal.Frame
import proofs.«131999_j66125316489524_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Gcn
open Cert.KernelIdeal Cert.KernelIdeal.Gen Cert.Gcn
variable (V : (c : Dev nD) → (b : Ref sig .tc) → Buf (Elt Ideal) ((c : Thread nD τ).loc b))

/-- The block offsets the body's accesses carry are all zero. -/
theorem zeros2_1 : (![0, 0] : Fin 2 → Nat) = fun _ => 0 := funext fun a => by fin_cases a <;> rfl

/-- A one-column block spread along the columns: entry (p, q) of the spread block is entry (p, 0) of the column. -/
theorem bcast_col1 (x : FVec Ideal S17000x1 .f32) (p : Fin 17000) (q : Fin 128) :
    broadcastTo S17000x128 x broadcasts_S17000x1_S17000x128 (ix2 p q) = x (ix2 p 0) :=
  broadcastTo_apply x _ (ix2 p q) (ix2 p 0) fun a => by
    match a with
    | ⟨0, _⟩ => rfl
    | ⟨1, _⟩ => rfl

/-- The body's arithmetic at an entry (p, q) of the block: the feature block's entry times the coefficient of row p.
    The two shape casts are of a shape to itself, the product is entry by entry, and the spread coefficient block
    reads its column 0. -/
theorem pay1_apply (x0 : Vec Ideal S17000x128 .f32) (x1 : Vec Ideal S17000x1 .f32) (p : Fin 17000) (q : Fin 128) :
    k1_pay1 x0 x1 (ix2 p q) = x0 (ix2 p q) * x1 (ix2 p 0) := by
  unfold k1_pay1
  rw [mulf_apply, shapeCast_self, shapeCast_self, bcast_col1]

/-- The three windows move together: at grid point t each is on block row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- One entry of one block. If the feature block's entry j is the feature array's entry i, and the coefficient
    block's entry in row (j 0) is the coefficient array's entry in row (i 0), then the body's result at j is the
    row-scaled array's entry i: both are that feature entry times that row's coefficient. -/
theorem block1 (g : FVec Ideal Edges128 .f32) (n : FVec Ideal EdgeCol .f32)
    (x0 : Vec Ideal S17000x128 .f32) (x1 : Vec Ideal S17000x1 .f32) (j : S17000x128.Idx) (i : Edges128.Idx)
    (h0 : x0 j = g i) (h1 : x1 (ix2 (j 0) 0) = n (ix2 (i 0) 0)) : k1_pay1 x0 x1 j = scale128 g n i := by
  obtain ⟨p, q, rfl⟩ : ∃ (p : Fin 17000) (q : Fin 128), j = ix2 p q := ⟨j 0, j 1, eq_ix2 j⟩
  rw [pay1_apply]
  exact congrArg₂ (· * ·) h0 h1

/-- At grid point t, entry j of the body's result is the row-scaled array at the place the output block puts j.
    A block's coordinate in its array is block index × block size + the coordinate inside the block; the feature
    block sits exactly where the output block sits (rows 17000·t …, all columns), and the coefficient block is the
    same rows of the single column, so row (j 0) of it is the coefficient of array row 17000·t + (j 0). -/
theorem point1 (c : Dev nD) (t : Fin cfg1.N) (j : S17000x128.Idx) :
    k1_pay1 (iblk1 V c 0 t) (iblk1 V c 1 t) j
      = scale128 (V c main_v38) (V c main_v30) (((cfg1.win 2).blk t).view.emb j) := by
  obtain ⟨e0, e1, e2, e3, e4, e5⟩ := idx_facts1 t
  refine block1 (V c main_v38) (V c main_v30) (iblk1 V c 0 t) (iblk1 V c 1 t) j _ ?_ ?_
  · show V c main_v38 (((cfg1.win 0).blk t).view.emb j) = V c main_v38 (((cfg1.win 2).blk t).view.emb j)
    refine congrArg _ (funext fun a => Fin.ext ?_)
    match a with
    | ⟨0, _⟩ => show win1_0.index t (0 : Fin 2) * 17000 + 1 * (j 0).val = win1_2.index t (0 : Fin 2) * 17000 + 1 * (j 0).val; omega
    | ⟨1, _⟩ => show win1_0.index t (1 : Fin 2) * 128 + 1 * (j 1).val = win1_2.index t (1 : Fin 2) * 128 + 1 * (j 1).val; omega
  · show V c main_v30 (((cfg1.win 1).blk t).view.emb (ix2 (j 0) 0)) = V c main_v30 (ix2 ((((cfg1.win 2).blk t).view.emb j) 0) 0)
    refine congrArg _ (funext fun a => Fin.ext ?_)
    match a with
    | ⟨0, _⟩ => show win1_1.index t (0 : Fin 2) * 17000 + 1 * (j 0).val = win1_2.index t (0 : Fin 2) * 17000 + 1 * (j 0).val; omega
    | ⟨1, _⟩ => show win1_1.index t (1 : Fin 2) * 1 + 1 * 0 = 0; omega

/-- What grid point t writes back is block t of the row-scaled array: the output's staging buffer holds the one
    store's payload, the payload is the body's arithmetic of the two whole input blocks, and entry by entry that is
    the row-scaled array under the output block. -/
theorem flushed1_eq (c : Dev nD) (t : Fin cfg1.N) :
    (dat1 (F := Ideal) V c).flushed 2 t = ((cfg1.win 2).blk t).view.read (Elt Ideal) (scale128 (V c main_v38) (V c main_v30)) := by
  show (cfg1.win 2).cut (grid1.coords t) ((dat1 V c).after 2 t) = _
  rw [after1_2]
  unfold out1_2
  rw [View.canon_unit_zero zeros2_1]
  simp only [View.ld_unit_zero (S := S17000x128) zeros2_1, View.ld_unit_zero (S := S17000x1) zeros2_1]
  funext j
  exact point1 V c t j

/-- An entry of the array lies in point t's output block exactly when each coordinate lies in the block's range
    on its axis: from block index × block size, for one block size. -/
theorem mem_blk1 (t : Fin cfg1.N) (i : S850000x128.Idx) :
    i ∈ ((cfg1.win 2).blk t).view.set ↔ ∀ a : Fin 2, win1_2.index t a * S17000x128.size a ≤ (i a).val ∧ (i a).val < win1_2.index t a * S17000x128.size a + S17000x128.size a := by
  show i ∈ ((View.whole main_v39).slice (win1_2.rect t)).set ↔ _
  rw [View.set_slice_whole, Rect.mem_set_unit]
  exact Iff.rfl

/-- The output blocks cover the array: row r lies in the block of grid point r / 17000 (850000 = 50 · 17000), and a
    block spans every column. -/
theorem cover1 (i : S850000x128.Idx) :
    ∃ t : Fin cfg1.N, (cfg1.win 2).flush t = true ∧ i ∈ ((cfg1.win 2).blk t).view.set := by
  have hi0 : (i 0).val < 850000 := (i 0).isLt
  have hi1 : (i 1).val < 128 := (i 1).isLt
  have hN : (i 0).val / 17000 < cfg1.N := by show _ < grid1.N; rw [N_1]; omega
  refine ⟨⟨(i 0).val / 17000, hN⟩, flush1_2 _, ?_⟩
  rw [mem_blk1]
  obtain ⟨e0, e1, e2, e3, e4, e5⟩ := idx_facts1 ⟨(i 0).val / 17000, hN⟩
  intro a
  match a with
  | ⟨0, _⟩ => show win1_2.index ⟨(i 0).val / 17000, hN⟩ (0 : Fin 2) * 17000 ≤ (i 0).val ∧ (i 0).val < win1_2.index ⟨(i 0).val / 17000, hN⟩ (0 : Fin 2) * 17000 + 17000; rw [e4]; show (i 0).val / 17000 * 17000 ≤ _ ∧ _ < (i 0).val / 17000 * 17000 + 17000; omega
  | ⟨1, _⟩ => show win1_2.index ⟨(i 0).val / 17000, hN⟩ (1 : Fin 2) * 128 ≤ (i 1).val ∧ (i 1).val < win1_2.index ⟨(i 0).val / 17000, hN⟩ (1 : Fin 2) * 128 + 128; omega

/-- The output array after the region's run is the feature array with every row scaled by its coefficient: every
    point writes back its block of that one array function, and the blocks cover the array. -/
theorem arr1 (c : Dev nD) : (dat1 (F := Ideal) V c).arrAt 2 cfg1.N = scale128 (V c main_v38) (V c main_v30) :=
  (dat1 V c).arrAt_eq_of_cover 2 (scale128 (V c main_v38) (V c main_v30)) (fun t _ => flushed1_eq V c t) cover1

end Cert.KernelIdeal.Gcn
end
-- ==== Proof.Region2.lean ====
import proofs.«131999_j66125316489524_1_alg».proof.Proof.Gen.KernelIdeal.Frame
import proofs.«131999_j66125316489524_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Gcn
open Cert.KernelIdeal Cert.KernelIdeal.Gen Cert.Gcn
variable (V : (c : Dev nD) → (b : Ref sig .tc) → Buf (Elt Ideal) ((c : Thread nD τ).loc b))

/-! # The first layer's epilogue, block by block

Each of the ten grid points takes 5000 consecutive rows of the [50000, 128] sum array and the whole one-row bias, adds the
bias row to every row of the block, applies the hyperbolic tangent, and writes the 5000 rows back at the same place. So the
array the region leaves is the whole-array bias-and-tanh of the two arrays it found. -/

/-- The body's accesses start at row 0, column 0 of their blocks. -/
theorem origin2 : (![0, 0] : Fin 2 → Nat) = fun _ => 0 :=
  funext fun a => by match a with | ⟨0, _⟩ => rfl | ⟨1, _⟩ => rfl

/-- The body's arithmetic at entry (p, q) of a block: the row block's entry (p, q) plus entry q of the one bias row (the
    row broadcast down the 5000 rows reads its row 0), then the hyperbolic tangent. The two casts are of a shape to
    itself. -/
theorem pay2_apply (x0 : Vec Ideal S5000x128 .f32) (x1 : Vec Ideal S1x128 .f32) (p : Fin 5000) (q : Fin 128) :
    k2_pay1 (F := Ideal) x0 x1 (ix2 p q) = Ideal.tanh (x0 (ix2 p q) + x1 (ix2 0 q)) := by
  unfold k2_pay1
  show Ideal.tanh (shapeCast S5000x128 x0 shapeCasts_S5000x128_S5000x128 (ix2 p q)
      + broadcastTo S5000x128 (shapeCast S1x128 x1 shapeCasts_S1x128_S1x128) broadcasts_S1x128_S5000x128 (ix2 p q)) = _
  rw [shapeCast_self, shapeCast_self, broadcastTo_apply x1 broadcasts_S1x128_S5000x128 (ix2 p q) (ix2 0 q)]
  intro a
  match a with
  | ⟨0, _⟩ => rfl
  | ⟨1, _⟩ => rfl

/-- One point's block of the result, stated over plain vectors: if the row block x0 is the array A read through a
    placement e of block entries in the array that keeps the column, and the bias block x1 is the bias array B itself,
    the body's payload at a block entry is the whole-array bias-and-tanh of A and B at that entry's place. -/
theorem point2 (A : FVec Ideal Nodes128 .f32) (B : FVec Ideal Row128 .f32)
    (x0 : Vec Ideal S5000x128 .f32) (x1 : Vec Ideal S1x128 .f32) (e : S5000x128.Idx → S50000x128.Idx)
    (h0 : ∀ y, x0 y = A (e y)) (h1 : ∀ y, x1 y = B y) (hcol : ∀ y, ((e y) 1).val = (y 1).val) (j : S5000x128.Idx) :
    k2_pay1 (F := Ideal) x0 x1 j = biasTanh A B (e j) := by
  obtain ⟨p, q, rfl⟩ : ∃ (p : Fin 5000) (q : Fin 128), j = ix2 p q := ⟨j 0, j 1, eq_ix2 j⟩
  rw [pay2_apply, h0, h1]
  unfold biasTanh
  have hq : ((e (ix2 p q)) 1 : Fin 128) = q := Fin.ext (hcol (ix2 p q))
  show Ideal.tanh (A (e (ix2 p q)) + B (ix2 0 q)) = Ideal.tanh (A (e (ix2 p q)) + B (ix2 0 ((e (ix2 p q)) 1)))
  rw [hq]

/-- The printed index maps over the ten points: the row block and the result block of point t are block t along the
    rows, the one block along the columns; the bias block is always the whole one-row array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array bias-and-tanh of the two arrays the region found. -/
theorem flushed2_eq (c : Dev nD) (t : Fin cfg2.N) :
    (dat2 (F := Ideal) V c).flushed 2 t
      = ((cfg2.win 2).blk t).view.read (Elt Ideal) (biasTanh (V c main_v42) (V c main_v43)) := by
  show (cfg2.win 2).cut (grid2.coords t) ((dat2 (F := Ideal) V c).after 2 t) = _
  rw [after2_2]
  unfold out2_2
  rw [View.canon_unit_zero origin2]
  simp only [View.ld_unit_zero (S := S5000x128) origin2, View.ld_unit_zero (S := S1x128) origin2]
  obtain ⟨e0, e1, e2, e3, e4, e5⟩ := idx_facts2 t
  funext j
  refine point2 (V c main_v42) (V c main_v43) (iblk2 V c 0 t) (iblk2 V c 1 t)
    (fun y => ((cfg2.win 2).blk t).view.emb y) (fun y => ?_) (fun y => ?_) (fun y => ?_) j
  · -- the row block sits in the sum array where the result block sits in the result array
    show V c main_v42 (((cfg2.win 0).blk t).view.emb y) = V c main_v42 (((cfg2.win 2).blk t).view.emb y)
    refine congrArg (V c main_v42) (funext fun a => Fin.ext ?_)
    match a with
    | ⟨0, _⟩ =>
      show win2_0.index t (0 : Fin 2) * 5000 + 1 * (y 0).val = win2_2.index t (0 : Fin 2) * 5000 + 1 * (y 0).val
      rw [e0, e4]
    | ⟨1, _⟩ =>
      show win2_0.index t (1 : Fin 2) * 128 + 1 * (y 1).val = win2_2.index t (1 : Fin 2) * 128 + 1 * (y 1).val
      rw [e1, e5]
  · -- the bias block is the whole bias row
    show V c main_v43 (((cfg2.win 1).blk t).view.emb y) = V c main_v43 y
    refine congrArg (V c main_v43) (funext fun a => Fin.ext ?_)
    match a with
    | ⟨0, _⟩ =>
      show win2_1.index t (0 : Fin 2) * 1 + 1 * (y 0).val = (y 0).val
      rw [e2]; omega
    | ⟨1, _⟩ =>
      show win2_1.index t (1 : Fin 2) * 128 + 1 * (y 1).val = (y 1).val
      rw [e3]; omega
  · -- the result block spans all 128 columns, so the column is kept
    show win2_2.index t (1 : Fin 2) * 128 + 1 * (y 1).val = (y 1).val
    rw [e5]; omega

/-- An entry of the result array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v44).slice (win2_2.rect t)).set ↔ _
  rw [View.set_slice_whole, Rect.mem_set_unit]
  exact Iff.rfl

/-- Row r of the result array lies in the block of point r / 5000, and every point writes its block back. -/
theorem cover2 (i : S50000x128.Idx) :
    ∃ t : Fin cfg2.N, (cfg2.win 2).flush t = true ∧ i ∈ ((cfg2.win 2).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by omega⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

/-- The result array after the region's run: the bias row added to every row of the sum array, then the hyperbolic
    tangent, entry by entry. -/
theorem arr2 (c : Dev nD) : (dat2 (F := Ideal) V c).arrAt 2 cfg2.N = biasTanh (V c main_v42) (V c main_v43) :=
  (dat2 (F := Ideal) V c).arrAt_eq_of_cover 2 (biasTanh (V c main_v42) (V c main_v43))
    (fun t _ => flushed2_eq V c t) cover2

end Cert.KernelIdeal.Gcn
end
-- ==== Proof.Region3.lean ====
/-
  The second layer's matrix product, from blocks to the whole array.

  The kernel walks the hidden features in ten blocks of 5000 rows. At each point it holds one block of rows and the whole
  weight matrix, and leaves in the output's block the products of those rows with the weight matrix's columns: entry
  (p, q) of the block is the sum over k of (row p of the block, column k) times (weight row k, column q). Row p of
  block t is row 5000·t + p of the array, so the block written at point t is rows 5000·t … 5000·t + 4999 of the
  whole-array product, and the ten blocks together are every row. Changing the number format of an operand does
  nothing to an extended real, and accumulating into zero is the plain sum.
-/
import proofs.«131999_j66125316489524_1_alg».proof.Proof.Gen.KernelIdeal.Frame
import proofs.«131999_j66125316489524_1_alg».proof.Proof.Spec
import proofs.«131999_j66125316489524_1_alg».proof.Proof.LibContraction
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Gcn
open Cert.KernelIdeal Cert.KernelIdeal.Gen Cert.Gcn Cert.Lib.Contraction
variable (V : (c : Dev nD) → (b : Ref sig .tc) → Buf (Elt Ideal) ((c : Thread nD τ).loc b))

/-! ## The product inside one block -/

/-- The left operand's row coordinate is the result's row, at every contraction position. -/
theorem lhs3_row (j : S5000x64.Idx) (k : dot_S5000x128_S128x64_S5000x64_1_0_0_1_n_n.contr.Idx) :
    (dot_S5000x128_S128x64_S5000x64_1_0_0_1_n_n.lhsIdx j k 0).val = (j 0).val :=
  lhs_free dot_S5000x128_S128x64_S5000x64_1_0_0_1_n_n rfl rfl j k (by decide)

/-- The left operand's column coordinate is the contraction position. -/
theorem lhs3_col (j : S5000x64.Idx) (i : Fin 128) :
    (dot_S5000x128_S128x64_S5000x64_1_0_0_1_n_n.lhsIdx j
      ((contrFin dot_S5000x128_S128x64_S5000x64_1_0_0_1_n_n (cl := 1) rfl 128 rfl).symm i) 1).val = i.val :=
  lhs_contracted dot_S5000x128_S128x64_S5000x64_1_0_0_1_n_n rfl 128 rfl j i

/-- The right operand's row coordinate is the contraction position. -/
theorem rhs3_row (j : S5000x64.Idx) (i : Fin 128) :
    (dot_S5000x128_S128x64_S5000x64_1_0_0_1_n_n.rhsIdx j
      ((contrFin dot_S5000x128_S128x64_S5000x64_1_0_0_1_n_n (cl := 1) rfl 128 rfl).symm i) 0).val = i.val :=
  rhs_contracted dot_S5000x128_S128x64_S5000x64_1_0_0_1_n_n rfl rfl 128 rfl j i

/-- The right operand's column coordinate is the result's column, at every contraction position. -/
theorem rhs3_col (j : S5000x64.Idx) (k : dot_S5000x128_S128x64_S5000x64_1_0_0_1_n_n.contr.Idx) :
    (dot_S5000x128_S128x64_S5000x64_1_0_0_1_n_n.rhsIdx j k 1).val = (j 1).val :=
  rhs_free dot_S5000x128_S128x64_S5000x64_1_0_0_1_n_n rfl rfl rfl rfl j k (by decide)

/-- The body's arithmetic at entry (p, q) of its block: the sum over k of x0 (p, k) · x1 (k, q). A change of number
    format is the identity on extended reals and the accumulator is zero, so what is left is the contraction's sum,
    its 128 positions numbered, each operand read at the coordinates the dimension numbers give. -/
theorem pay3_apply (x0 : Vec Ideal S5000x128 .f32) (x1 : Vec Ideal S128x64 .f32) (p : Fin 5000) (q : Fin 64) :
    k3_pay1 x0 x1 (ix2 p q) = ∑ k : Fin 128, x0 (ix2 p k) * x1 (ix2 k q) := by
  unfold k3_pay1
  rw [shapeCast_self]
  refine (Ideal.matmul_constant_zero_apply dot_S5000x128_S128x64_S5000x64_1_0_0_1_n_n none _ _ (ix2 p q)).trans ?_
  rw [sum_contr dot_S5000x128_S128x64_S5000x64_1_0_0_1_n_n (cl := 1) rfl 128 rfl]
  refine Finset.sum_congr rfl fun k _ => ?_
  rw [truncf_apply, truncf_apply]
  congr 2
  · funext a
    apply Fin.ext
    match a with
    | ⟨0, _⟩ => exact lhs3_row _ _
    | ⟨1, _⟩ => exact lhs3_col _ k
  · funext a
    apply Fin.ext
    match a with
    | ⟨0, _⟩ => exact rhs3_row _ k
    | ⟨1, _⟩ => exact rhs3_col _ _

/-- The whole-array product at an index whose coordinates are known by value. -/
theorem matmul64_at (x : FVec Ideal Nodes128 .f32) (w : FVec Ideal W128x64 .f32) (i : Nodes64.Idx) (r : Fin 50000) (q : Fin 64)
    (h0 : (i 0).val = r.val) (h1 : (i 1).val = q.val) :
    matmul64 x w i = ∑ k : Fin 128, x (ix2 r k) * w (ix2 k q) := by
  have e : i = ix2 r q := by
    funext a
    apply Fin.ext
    match a with
    | ⟨0, _⟩ => exact h0
    | ⟨1, _⟩ => exact h1
  rw [e]
  rfl

/-! ## The blocks as parts of the arrays -/

theorem zero_offsets3 : (![0, 0] : Fin 2 → Nat) = fun _ => 0 :=
  funext fun a => by match a with | ⟨0, _⟩ => rfl | ⟨1, _⟩ => rfl

/-- The index maps over the grid: the row operand's and the result's block index is (t, 0); the weight matrix's is
    (0, 0) at every point. -/
theorem block_index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, k) of the row operand's block at point t is entry (5000·t + p, k) of its array. -/
theorem rows3_apply (c : Dev nD) (t : Fin cfg3.N) (p : Fin 5000) (k : Fin 128) (r : Fin 50000)
    (hr : r.val = t.val * 5000 + p.val) :
    (iblk3 (F := Ideal) V c 0 t : Vec Ideal S5000x128 .f32) (ix2 p k)
      = (V c main_v44 : S50000x128.Idx → Elt Ideal .f32) (ix2 r k) := by
  obtain ⟨e0, e1, -⟩ := block_index3 t
  unfold iblk3
  rw [View.read_apply]
  show V c main_v44 _ = V c main_v44 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- The weight operand's block at every point is the whole weight matrix. -/
theorem weights3_apply (c : Dev nD) (t : Fin cfg3.N) (k : Fin 128) (q : Fin 64) :
    (iblk3 (F := Ideal) V c 1 t : Vec Ideal S128x64 .f32) (ix2 k q)
      = (V c main_arg4 : S128x64.Idx → Elt Ideal .f32) (ix2 k q) := by
  obtain ⟨-, -, e2, e3, -⟩ := block_index3 t
  unfold iblk3
  rw [View.read_apply]
  show V c main_arg4 _ = V c main_arg4 _
  congr 1
  funext a
  apply Fin.ext
  match a with
  | ⟨0, _⟩ => show win3_1.index t (0 : Fin 2) * 128 + 1 * k.val = k.val; rw [e2]; omega
  | ⟨1, _⟩ => show win3_1.index t (1 : Fin 2) * 64 + 1 * q.val = q.val; rw [e3]; omega

/-! ## What a point writes back -/

/-- The block written back at point t is block t of the whole-array product of the two arrays as the region
    found them: entry (p, q) of the block is the product's entry (5000·t + p, q). -/
theorem flushed3_eq (c : Dev nD) (t : Fin cfg3.N) :
    (dat3 (F := Ideal) V c).flushed 2 t
      = ((cfg3.win 2).blk t).view.read (Elt Ideal) (matmul64 (V c main_v44) (V c main_arg4)) := by
  show (cfg3.win 2).cut (grid3.coords t) ((dat3 V c).after 2 t) = _
  rw [after3_2]
  unfold out3_2
  rw [View.canon_unit_zero zero_offsets3]
  simp only [View.ld_unit_zero (S := S5000x128) zero_offsets3, View.ld_unit_zero (S := S128x64) zero_offsets3]
  have hN : grid3.N = 10 := N_3
  have ht : t.val < 10 := hN ▸ t.isLt
  obtain ⟨-, -, -, -, e4, e5⟩ := block_index3 t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = matmul64 (V c main_v44) (V c main_arg4) (((cfg3.win 2).blk t).view.emb (ix2 p q))
  have hp : p.val < 5000 := p.isLt
  refine (pay3_apply (iblk3 V c 0 t) (iblk3 V c 1 t) p q).trans ?_
  refine Eq.trans ?_ (matmul64_at (V c main_v44) (V c main_arg4) _ ⟨t.val * 5000 + p.val, by omega⟩ q ?_ ?_).symm
  · refine Finset.sum_congr rfl fun k _ => ?_
    rw [rows3_apply V c t p k ⟨t.val * 5000 + p.val, by omega⟩ rfl, weights3_apply V c t k q]
  · show win3_2.index t (0 : Fin 2) * 5000 + 1 * p.val = t.val * 5000 + p.val
    rw [e4]; omega
  · show win3_2.index t (1 : Fin 2) * 64 + 1 * q.val = q.val
    rw [e5]; omega

/-! ## The blocks cover the array -/

/-- An index of the result is in point t's block exactly when each coordinate is in the block's range. -/
theorem mem_block3 (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v45).slice (win3_2.rect t)).set ↔ _
  rw [View.set_slice_whole, Rect.mem_set_unit]
  exact Iff.rfl

/-- Row r of the result lies in the block of point r / 5000, and every point writes its block back. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 10 := N_3
  have hlt : (i 0).val / 5000 < grid3.N := by rw [hN]; omega
  obtain ⟨-, -, -, -, e4, e5⟩ := block_index3 ⟨(i 0).val / 5000, hlt⟩
  refine ⟨⟨(i 0).val / 5000, hlt⟩, flush3_2 _, ?_⟩
  rw [mem_block3]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, hlt⟩ (1 : Fin 2) * 64 ≤ (i 1).val
      ∧ (i 1).val < win3_2.index ⟨(i 0).val / 5000, hlt⟩ (1 : Fin 2) * 64 + 64
    rw [e5]
    omega

/-! ## The array after the run -/

/-- After the region's ten points the result array is the whole-array product of the two input arrays as the
    region found them. -/
theorem arr3 (c : Dev nD) :
    (dat3 (F := Ideal) V c).arrAt 2 cfg3.N = matmul64 (V c main_v44) (V c main_arg4) :=
  (dat3 (F := Ideal) V c).arrAt_eq_of_cover 2 (matmul64 (V c main_v44) (V c main_arg4))
    (fun t _ => flushed3_eq V c t) (cover3)

end Cert.KernelIdeal.Gcn
end
-- ==== Proof.Region4.lean ====
import proofs.«131999_j66125316489524_1_alg».proof.Proof.Gen.KernelIdeal.Frame
import proofs.«131999_j66125316489524_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Gcn
open Cert.KernelIdeal Cert.KernelIdeal.Gen Cert.Gcn
variable (V : (c : Dev nD) → (b : Ref sig .tc) → Buf (Elt Ideal) ((c : Thread nD τ).loc b))

/-- The block offsets the body's accesses carry are all zero. -/
theorem zeros2_4 : (![0, 0] : Fin 2 → Nat) = fun _ => 0 := funext fun a => by fin_cases a <;> rfl

/-- A one-column block spread along the columns: entry (p, q) of the spread block is entry (p, 0) of the column. -/
theorem bcast_col4 (x : FVec Ideal S17000x1 .f32) (p : Fin 17000) (q : Fin 64) :
    broadcastTo S17000x64 x broadcasts_S17000x1_S17000x64 (ix2 p q) = x (ix2 p 0) :=
  broadcastTo_apply x _ (ix2 p q) (ix2 p 0) fun a => by
    match a with
    | ⟨0, _⟩ => rfl
    | ⟨1, _⟩ => rfl

/-- The body's arithmetic at an entry (p, q) of the block: the feature block's entry times the coefficient of row p.
    The two shape casts are of a shape to itself, the product is entry by entry, and the spread coefficient block
    reads its column 0. -/
theorem pay4_apply (x0 : Vec Ideal S17000x64 .f32) (x1 : Vec Ideal S17000x1 .f32) (p : Fin 17000) (q : Fin 64) :
    k4_pay1 x0 x1 (ix2 p q) = x0 (ix2 p q) * x1 (ix2 p 0) := by
  unfold k4_pay1
  rw [mulf_apply, shapeCast_self, shapeCast_self, bcast_col4]

/-- The three windows move together: at grid point t each is on block row t, block column 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- One entry of one block. If the feature block's entry j is the feature array's entry i, and the coefficient
    block's entry in row (j 0) is the coefficient array's entry in row (i 0), then the body's result at j is the
    row-scaled array's entry i: both are that feature entry times that row's coefficient. -/
theorem block4 (g : FVec Ideal Edges64 .f32) (n : FVec Ideal EdgeCol .f32)
    (x0 : Vec Ideal S17000x64 .f32) (x1 : Vec Ideal S17000x1 .f32) (j : S17000x64.Idx) (i : Edges64.Idx)
    (h0 : x0 j = g i) (h1 : x1 (ix2 (j 0) 0) = n (ix2 (i 0) 0)) : k4_pay1 x0 x1 j = scale64 g n i := by
  obtain ⟨p, q, rfl⟩ : ∃ (p : Fin 17000) (q : Fin 64), j = ix2 p q := ⟨j 0, j 1, eq_ix2 j⟩
  rw [pay4_apply]
  exact congrArg₂ (· * ·) h0 h1

/-- At grid point t, entry j of the body's result is the row-scaled array at the place the output block puts j.
    A block's coordinate in its array is block index × block size + the coordinate inside the block; the feature
    block sits exactly where the output block sits (rows 17000·t …, all columns), and the coefficient block is the
    same rows of the single column, so row (j 0) of it is the coefficient of array row 17000·t + (j 0). -/
theorem point4 (c : Dev nD) (t : Fin cfg4.N) (j : S17000x64.Idx) :
    k4_pay1 (iblk4 V c 0 t) (iblk4 V c 1 t) j
      = scale64 (V c main_v52) (V c main_v30) (((cfg4.win 2).blk t).view.emb j) := by
  obtain ⟨e0, e1, e2, e3, e4, e5⟩ := idx_facts4 t
  refine block4 (V c main_v52) (V c main_v30) (iblk4 V c 0 t) (iblk4 V c 1 t) j _ ?_ ?_
  · show V c main_v52 (((cfg4.win 0).blk t).view.emb j) = V c main_v52 (((cfg4.win 2).blk t).view.emb j)
    refine congrArg _ (funext fun a => Fin.ext ?_)
    match a with
    | ⟨0, _⟩ => show win4_0.index t (0 : Fin 2) * 17000 + 1 * (j 0).val = win4_2.index t (0 : Fin 2) * 17000 + 1 * (j 0).val; omega
    | ⟨1, _⟩ => show win4_0.index t (1 : Fin 2) * 64 + 1 * (j 1).val = win4_2.index t (1 : Fin 2) * 64 + 1 * (j 1).val; omega
  · show V c main_v30 (((cfg4.win 1).blk t).view.emb (ix2 (j 0) 0)) = V c main_v30 (ix2 ((((cfg4.win 2).blk t).view.emb j) 0) 0)
    refine congrArg _ (funext fun a => Fin.ext ?_)
    match a with
    | ⟨0, _⟩ => show win4_1.index t (0 : Fin 2) * 17000 + 1 * (j 0).val = win4_2.index t (0 : Fin 2) * 17000 + 1 * (j 0).val; omega
    | ⟨1, _⟩ => show win4_1.index t (1 : Fin 2) * 1 + 1 * 0 = 0; omega

/-- What grid point t writes back is block t of the row-scaled array: the output's staging buffer holds the one
    store's payload, the payload is the body's arithmetic of the two whole input blocks, and entry by entry that is
    the row-scaled array under the output block. -/
theorem flushed4_eq (c : Dev nD) (t : Fin cfg4.N) :
    (dat4 (F := Ideal) V c).flushed 2 t = ((cfg4.win 2).blk t).view.read (Elt Ideal) (scale64 (V c main_v52) (V c main_v30)) := by
  show (cfg4.win 2).cut (grid4.coords t) ((dat4 V c).after 2 t) = _
  rw [after4_2]
  unfold out4_2
  rw [View.canon_unit_zero zeros2_4]
  simp only [View.ld_unit_zero (S := S17000x64) zeros2_4, View.ld_unit_zero (S := S17000x1) zeros2_4]
  funext j
  exact point4 V c t j

/-- An entry of the array lies in point t's output block exactly when each coordinate lies in the block's range
    on its axis: from block index × block size, for one block size. -/
theorem mem_blk4 (t : Fin cfg4.N) (i : S850000x64.Idx) :
    i ∈ ((cfg4.win 2).blk t).view.set ↔ ∀ a : Fin 2, win4_2.index t a * S17000x64.size a ≤ (i a).val ∧ (i a).val < win4_2.index t a * S17000x64.size a + S17000x64.size a := by
  show i ∈ ((View.whole main_v53).slice (win4_2.rect t)).set ↔ _
  rw [View.set_slice_whole, Rect.mem_set_unit]
  exact Iff.rfl

/-- The output blocks cover the array: row r lies in the block of grid point r / 17000 (850000 = 50 · 17000), and a
    block spans every column. -/
theorem cover4 (i : S850000x64.Idx) :
    ∃ t : Fin cfg4.N, (cfg4.win 2).flush t = true ∧ i ∈ ((cfg4.win 2).blk t).view.set := by
  have hi0 : (i 0).val < 850000 := (i 0).isLt
  have hi1 : (i 1).val < 64 := (i 1).isLt
  have hN : (i 0).val / 17000 < cfg4.N := by show _ < grid4.N; rw [N_4]; omega
  refine ⟨⟨(i 0).val / 17000, hN⟩, flush4_2 _, ?_⟩
  rw [mem_blk4]
  obtain ⟨e0, e1, e2, e3, e4, e5⟩ := idx_facts4 ⟨(i 0).val / 17000, hN⟩
  intro a
  match a with
  | ⟨0, _⟩ => show win4_2.index ⟨(i 0).val / 17000, hN⟩ (0 : Fin 2) * 17000 ≤ (i 0).val ∧ (i 0).val < win4_2.index ⟨(i 0).val / 17000, hN⟩ (0 : Fin 2) * 17000 + 17000; rw [e4]; show (i 0).val / 17000 * 17000 ≤ _ ∧ _ < (i 0).val / 17000 * 17000 + 17000; omega
  | ⟨1, _⟩ => show win4_2.index ⟨(i 0).val / 17000, hN⟩ (1 : Fin 2) * 64 ≤ (i 1).val ∧ (i 1).val < win4_2.index ⟨(i 0).val / 17000, hN⟩ (1 : Fin 2) * 64 + 64; omega

/-- The output array after the region's run is the feature array with every row scaled by its coefficient: every
    point writes back its block of that one array function, and the blocks cover the array. -/
theorem arr4 (c : Dev nD) : (dat4 (F := Ideal) V c).arrAt 2 cfg4.N = scale64 (V c main_v52) (V c main_v30) :=
  (dat4 V c).arrAt_eq_of_cover 2 (scale64 (V c main_v52) (V c main_v30)) (fun t _ => flushed4_eq V c t) cover4

end Cert.KernelIdeal.Gcn
end
-- ==== Proof.Region5.lean ====
import proofs.«131999_j66125316489524_1_alg».proof.Proof.Gen.KernelIdeal.Frame
import proofs.«131999_j66125316489524_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Gcn
open Cert.KernelIdeal Cert.KernelIdeal.Gen Cert.Gcn
variable (V : (c : Dev nD) → (b : Ref sig .tc) → Buf (Elt Ideal) ((c : Thread nD τ).loc b))

/-! # The second layer's epilogue, block by block

Each of the ten grid points takes 5000 consecutive rows of the [50000, 64] sum array and the whole one-row bias, adds the
bias row to every row of the block, and writes the 5000 rows back at the same place. So the array the region leaves is the
whole-array bias step of the two arrays it found. -/

/-- The body's accesses start at row 0, column 0 of their blocks. -/
theorem origin5 : (![0, 0] : Fin 2 → Nat) = fun _ => 0 :=
  funext fun a => by match a with | ⟨0, _⟩ => rfl | ⟨1, _⟩ => rfl

/-- The body's arithmetic at entry (p, q) of a block: the row block's entry (p, q) plus entry q of the one bias row (the
    row broadcast down the 5000 rows reads its row 0). The two casts are of a shape to itself. -/
theorem pay5_apply (x0 : Vec Ideal S5000x64 .f32) (x1 : Vec Ideal S1x64 .f32) (p : Fin 5000) (q : Fin 64) :
    k5_pay1 (F := Ideal) x0 x1 (ix2 p q) = x0 (ix2 p q) + x1 (ix2 0 q) := by
  unfold k5_pay1
  show shapeCast S5000x64 x0 shapeCasts_S5000x64_S5000x64 (ix2 p q)
      + broadcastTo S5000x64 (shapeCast S1x64 x1 shapeCasts_S1x64_S1x64) broadcasts_S1x64_S5000x64 (ix2 p q) = _
  rw [shapeCast_self, shapeCast_self, broadcastTo_apply x1 broadcasts_S1x64_S5000x64 (ix2 p q) (ix2 0 q)]
  intro a
  match a with
  | ⟨0, _⟩ => rfl
  | ⟨1, _⟩ => rfl

/-- One point's block of the result, stated over plain vectors: if the row block x0 is the array A read through a
    placement e of block entries in the array that keeps the column, and the bias block x1 is the bias array B itself,
    the body's payload at a block entry is the whole-array bias step of A and B at that entry's place. -/
theorem point5 (A : FVec Ideal Nodes64 .f32) (B : FVec Ideal Row64 .f32)
    (x0 : Vec Ideal S5000x64 .f32) (x1 : Vec Ideal S1x64 .f32) (e : S5000x64.Idx → S50000x64.Idx)
    (h0 : ∀ y, x0 y = A (e y)) (h1 : ∀ y, x1 y = B y) (hcol : ∀ y, ((e y) 1).val = (y 1).val) (j : S5000x64.Idx) :
    k5_pay1 (F := Ideal) x0 x1 j = bias64 A B (e j) := by
  obtain ⟨p, q, rfl⟩ : ∃ (p : Fin 5000) (q : Fin 64), j = ix2 p q := ⟨j 0, j 1, eq_ix2 j⟩
  rw [pay5_apply, h0, h1]
  unfold bias64
  have hq : ((e (ix2 p q)) 1 : Fin 64) = q := Fin.ext (hcol (ix2 p q))
  show A (e (ix2 p q)) + B (ix2 0 q) = A (e (ix2 p q)) + B (ix2 0 ((e (ix2 p q)) 1))
  rw [hq]

/-- The printed index maps over the ten points: the row block and the result block of point t are block t along the
    rows, the one block along the columns; the bias block is always the whole one-row array. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole-array bias step of the two arrays the region found. -/
theorem flushed5_eq (c : Dev nD) (t : Fin cfg5.N) :
    (dat5 (F := Ideal) V c).flushed 2 t
      = ((cfg5.win 2).blk t).view.read (Elt Ideal) (bias64 (V c main_v56) (V c main_v57)) := by
  show (cfg5.win 2).cut (grid5.coords t) ((dat5 (F := Ideal) V c).after 2 t) = _
  rw [after5_2]
  unfold out5_2
  rw [View.canon_unit_zero origin5]
  simp only [View.ld_unit_zero (S := S5000x64) origin5, View.ld_unit_zero (S := S1x64) origin5]
  obtain ⟨e0, e1, e2, e3, e4, e5⟩ := idx_facts5 t
  funext j
  refine point5 (V c main_v56) (V c main_v57) (iblk5 V c 0 t) (iblk5 V c 1 t)
    (fun y => ((cfg5.win 2).blk t).view.emb y) (fun y => ?_) (fun y => ?_) (fun y => ?_) j
  · -- the row block sits in the sum array where the result block sits in the result array
    show V c main_v56 (((cfg5.win 0).blk t).view.emb y) = V c main_v56 (((cfg5.win 2).blk t).view.emb y)
    refine congrArg (V c main_v56) (funext fun a => Fin.ext ?_)
    match a with
    | ⟨0, _⟩ =>
      show win5_0.index t (0 : Fin 2) * 5000 + 1 * (y 0).val = win5_2.index t (0 : Fin 2) * 5000 + 1 * (y 0).val
      rw [e0, e4]
    | ⟨1, _⟩ =>
      show win5_0.index t (1 : Fin 2) * 64 + 1 * (y 1).val = win5_2.index t (1 : Fin 2) * 64 + 1 * (y 1).val
      rw [e1, e5]
  · -- the bias block is the whole bias row
    show V c main_v57 (((cfg5.win 1).blk t).view.emb y) = V c main_v57 y
    refine congrArg (V c main_v57) (funext fun a => Fin.ext ?_)
    match a with
    | ⟨0, _⟩ =>
      show win5_1.index t (0 : Fin 2) * 1 + 1 * (y 0).val = (y 0).val
      rw [e2]; omega
    | ⟨1, _⟩ =>
      show win5_1.index t (1 : Fin 2) * 64 + 1 * (y 1).val = (y 1).val
      rw [e3]; omega
  · -- the result block spans all 64 columns, so the column is kept
    show win5_2.index t (1 : Fin 2) * 64 + 1 * (y 1).val = (y 1).val
    rw [e5]; omega

/-- An entry of the result array is in point t's block iff each coordinate is in the block's range on its axis. -/
theorem mem_blk5 (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v58).slice (win5_2.rect t)).set ↔ _
  rw [View.set_slice_whole, Rect.mem_set_unit]
  exact Iff.rfl

/-- Row r of the result array lies in the block of point r / 5000, and every point writes its block back. -/
theorem cover5 (i : S50000x64.Idx) :
    ∃ t : Fin cfg5.N, (cfg5.win 2).flush t = true ∧ i ∈ ((cfg5.win 2).blk t).view.set := by
  have hi0 : (i 0).val < 50000 := idx2_lt0 i
  have hi1 : (i 1).val < 64 := idx2_lt1 i
  have hN : cfg5.N = 10 := N_5
  obtain ⟨t, ht⟩ : ∃ t : Fin cfg5.N, t.val = (i 0).val / 5000 := ⟨⟨(i 0).val / 5000, by omega⟩, rfl⟩
  obtain ⟨-, -, -, -, e4, e5⟩ := idx_facts5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    rw [e4, ht]; omega
  | ⟨1, _⟩ =>
    show win5_2.index t (1 : Fin 2) * 64 ≤ (i 1).val ∧ (i 1).val < win5_2.index t (1 : Fin 2) * 64 + 64
    rw [e5]; omega

/-- The result array after the region's run: the bias row added to every row of the sum array, entry by entry. -/
theorem arr5 (c : Dev nD) : (dat5 (F := Ideal) V c).arrAt 2 cfg5.N = bias64 (V c main_v56) (V c main_v57) :=
  (dat5 (F := Ideal) V c).arrAt_eq_of_cover 2 (bias64 (V c main_v56) (V c main_v57))
    (fun t _ => flushed5_eq V c t) cover5

end Cert.KernelIdeal.Gcn
end
-- ==== Proof.KernelValue.lean ====
/-
  The idealized kernel's result, read back through the program.

  The result array at the last boundary is what the last region's write-backs left; that region read what the
  stretch before it computed from the region before, and so on back to the launch. Each step is one equation: a
  region's output array is its whole-array function of its two input arrays (the six region facts), a host stretch's
  buffer is its operations of the buffers it read, and a buffer nobody wrote in between is what it was. Chained, the
  result is the two layers of the graph convolution applied to the six arguments.
-/
import proofs.«131999_j66125316489524_1_alg».proof.Proof.Gen.KernelIdeal.Frame
import proofs.«131999_j66125316489524_1_alg».proof.Proof.Spec
import proofs.«131999_j66125316489524_1_alg».proof.Proof.HostStretches
import proofs.«131999_j66125316489524_1_alg».proof.Proof.Carry
import proofs.«131999_j66125316489524_1_alg».proof.Proof.KernelRun
import proofs.«131999_j66125316489524_1_alg».proof.Proof.Region0
import proofs.«131999_j66125316489524_1_alg».proof.Proof.Region1
import proofs.«131999_j66125316489524_1_alg».proof.Proof.Region2
import proofs.«131999_j66125316489524_1_alg».proof.Proof.Region3
import proofs.«131999_j66125316489524_1_alg».proof.Proof.Region4
import proofs.«131999_j66125316489524_1_alg».proof.Proof.Region5

set_option maxRecDepth 16384

noncomputable section

open Idealize.ShloMosaic Idealize.ShloMosaic.TcCoe Idealize.SL.Sem
open Idealize.ShloMosaic.Pipeline (Dat)

namespace Cert.KernelIdeal.Gcn

open Cert.KernelIdeal Cert.KernelIdeal.Gen Cert.Gcn

/-! ## The result as one function of the six arguments -/

/-- The coefficient column: every edge's coefficient, laid out as one column. -/
abbrev normCol (e : IVec S2x800000 32) : FVec Ideal S850000x1 .f32 :=
  shapeCast S850000x1 (normOf (srcOf e) (dstOf e)) shapeCasts_S850000_S850000x1

/-- The first layer: product with the first weights, the source rows scaled edge by edge, summed into the
    destination nodes, the bias and the hyperbolic tangent. -/
abbrev layer1 (x : FVec Ideal S50000x128 .f32) (e : IVec S2x800000 32) (w1 : FVec Ideal S128x128 .f32) (b1 : FVec Ideal S128 .f32) :
    FVec Ideal S50000x128 .f32 :=
  biasTanh
    (Host.scatterAdd scatter_S50000x128_S850000x1_S850000x128_1_0_0_1
      (broadcastInDim S50000x128 ![] bcast_S_S50000x128 (constant (F := Ideal) S_ .f32 0x00000000#32))
      (broadcastInDim S850000x1 ![0] bcast_S850000_S850000x1_0 (dstOf e))
      (scale128 (Host.gather gather_S50000x128_S850000x1_S850000x128_1_0_n_n_0_1_1128 (matmul128 x w1) (wrapCol (srcOf e))) (normCol e)))
    (shapeCast S1x128 b1 shapeCasts_S128_S1x128)

/-- The second layer over the first layer's result, without the hyperbolic tangent. -/
abbrev layer2 (h : FVec Ideal S50000x128 .f32) (e : IVec S2x800000 32) (w2 : FVec Ideal S128x64 .f32) (b2 : FVec Ideal S64 .f32) :
    FVec Ideal S50000x64 .f32 :=
  bias64
    (Host.scatterAdd scatter_S50000x64_S850000x1_S850000x64_1_0_0_1
      (broadcastInDim S50000x64 ![] bcast_S_S50000x64 (constant (F := Ideal) S_ .f32 0x00000000#32))
      (broadcastInDim S850000x1 ![0] bcast_S850000_S850000x1_0 (dstOf e))
      (scale64 (Host.gather gather_S50000x64_S850000x1_S850000x64_1_0_n_n_0_1_164 (matmul64 h w2) (wrapCol (srcOf e))) (normCol e)))
    (shapeCast S1x64 b2 shapeCasts_S64_S1x64)

variable (m : (ℓ : Loc nD τ sig) → Buf (Elt Ideal) ℓ) (ρ : Dev nD → PrngReg)

/-! ## Before the first region: the edge lists and the coefficient column -/

theorem src_eq (c : Dev nD) : W3 m ρ c (Proc.devRef .tc main_v5) = srcOf (m ((c : Thread nD τ).loc main_arg1)) :=
  (W3_src m ρ c).trans ((first_src (W0 m ρ c)).trans (congrArg srcOf (W0_arg1 m ρ c)))

theorem dst_eq (c : Dev nD) : W3 m ρ c (Proc.devRef .tc main_v6) = dstOf (m ((c : Thread nD τ).loc main_arg1)) :=
  (W3_dst m ρ c).trans ((first_dst (W0 m ρ c)).trans (congrArg dstOf (W0_arg1 m ρ c)))

/-- The reciprocal square roots of the degrees, after the select. -/
theorem dinv_eq (c : Dev nD) : W2 m ρ c (Proc.devRef .tc main_v14) = dinvOf (dstOf (m ((c : Thread nD τ).loc main_arg1))) := by
  refine (where_dinv (W1 m ρ c)).trans ?_
  show select (StableHlo.after hostOps0 (W0 m ρ c) (Proc.devRef .tc main_v12)) (StableHlo.after hostOps0 (W0 m ρ c) (Proc.devRef .tc main_v13))
      (broadcastInDim S50000 ![] bcast_S_S50000 (id (StableHlo.after hostOps0 (W0 m ρ c) (Proc.devRef .tc main_cst_2)))) = _
  rw [first_pos, first_rsqrt, first_zero, W0_arg1]

theorem norm_eq (c : Dev nD) : W3 m ρ c (Proc.devRef .tc main_v30) = normCol (m ((c : Thread nD τ).loc main_arg1)) := by
  refine (second_norm (W2 m ρ c)).trans ?_
  rw [dinv_eq, W2_src, W2_dst]
  show shapeCast S850000x1 (mulf (Host.gather _ _ (wrapCol (StableHlo.after hostOps0 (W0 m ρ c) (Proc.devRef .tc main_v5))))
      (Host.gather _ _ (wrapCol (StableHlo.after hostOps0 (W0 m ρ c) (Proc.devRef .tc main_v6))))) _ = _
  rw [first_src, first_dst, W0_arg1]

/-! ## The first layer -/

theorem prod1_eq (c : Dev nD) : W4 m ρ c (Proc.devRef .tc main_v31)
    = matmul128 (m ((c : Thread nD τ).loc main_arg0)) (m ((c : Thread nD τ).loc main_arg2)) := by
  refine (W4_arr m ρ c 2).trans ((arr0 (V3 m ρ) c).trans ?_)
  show matmul128 (W3 m ρ c (Proc.devRef .tc main_arg0)) (W3 m ρ c (Proc.devRef .tc main_arg2)) = _
  rw [W3_arg0, W3_arg2]

theorem rows1_eq (c : Dev nD) : W5 m ρ c (Proc.devRef .tc main_v38)
    = Host.gather gather_S50000x128_S850000x1_S850000x128_1_0_n_n_0_1_1128
        (matmul128 (m ((c : Thread nD τ).loc main_arg0)) (m ((c : Thread nD τ).loc main_arg2)))
        (wrapCol (srcOf (m ((c : Thread nD τ).loc main_arg1)))) := by
  refine (gather128 (W4 m ρ c)).trans ?_
  rw [prod1_eq, W4_src, src_eq]

theorem msg1_eq (c : Dev nD) : W6 m ρ c (Proc.devRef .tc main_v39)
    = scale128 (Host.gather gather_S50000x128_S850000x1_S850000x128_1_0_n_n_0_1_1128
        (matmul128 (m ((c : Thread nD τ).loc main_arg0)) (m ((c : Thread nD τ).loc main_arg2)))
        (wrapCol (srcOf (m ((c : Thread nD τ).loc main_arg1))))) (normCol (m ((c : Thread nD τ).loc main_arg1))) := by
  refine (W6_arr m ρ c 2).trans ((arr1 (V5 m ρ) c).trans ?_)
  show scale128 (W5 m ρ c (Proc.devRef .tc main_v38)) (W5 m ρ c (Proc.devRef .tc main_v30)) = _
  rw [rows1_eq, W5_norm, norm_eq]

theorem layer1_eq (c : Dev nD) : W8 m ρ c (Proc.devRef .tc main_v44)
    = layer1 (m ((c : Thread nD τ).loc main_arg0)) (m ((c : Thread nD τ).loc main_arg1)) (m ((c : Thread nD τ).loc main_arg2)) (m ((c : Thread nD τ).loc main_arg3)) := by
  refine (W8_arr m ρ c 2).trans ((arr2 (V7 m ρ) c).trans ?_)
  show biasTanh (StableHlo.after hostOps2 (W6 m ρ c) (Proc.devRef .tc main_v42)) (StableHlo.after hostOps2 (W6 m ρ c) (Proc.devRef .tc main_v43)) = _
  rw [scatter128, bias128_row, msg1_eq, W6_dst, dst_eq, W6_arg3]

/-! ## The second layer -/

theorem prod2_eq (c : Dev nD) : W9 m ρ c (Proc.devRef .tc main_v45)
    = matmul64 (layer1 (m ((c : Thread nD τ).loc main_arg0)) (m ((c : Thread nD τ).loc main_arg1)) (m ((c : Thread nD τ).loc main_arg2)) (m ((c : Thread nD τ).loc main_arg3)))
        (m ((c : Thread nD τ).loc main_arg4)) := by
  refine (W9_arr m ρ c 2).trans ((arr3 (V8 m ρ) c).trans ?_)
  show matmul64 (W8 m ρ c (Proc.devRef .tc main_v44)) (W8 m ρ c (Proc.devRef .tc main_arg4)) = _
  rw [layer1_eq, W8_arg4]

theorem msg2_eq (c : Dev nD) : W11 m ρ c (Proc.devRef .tc main_v53)
    = scale64 (Host.gather gather_S50000x64_S850000x1_S850000x64_1_0_n_n_0_1_164
        (matmul64 (layer1 (m ((c : Thread nD τ).loc main_arg0)) (m ((c : Thread nD τ).loc main_arg1)) (m ((c : Thread nD τ).loc main_arg2)) (m ((c : Thread nD τ).loc main_arg3)))
          (m ((c : Thread nD τ).loc main_arg4)))
        (wrapCol (srcOf (m ((c : Thread nD τ).loc main_arg1))))) (normCol (m ((c : Thread nD τ).loc main_arg1))) := by
  refine (W11_arr m ρ c 2).trans ((arr4 (V10 m ρ) c).trans ?_)
  show scale64 (StableHlo.after hostOps4 (W9 m ρ c) (Proc.devRef .tc main_v52)) (W10 m ρ c (Proc.devRef .tc main_v30)) = _
  rw [gather64, prod2_eq, W9_src, src_eq, W10_norm, norm_eq]

/-- THE RESULT: the result array at the last boundary is the two layers of the six arguments. -/
theorem result_eq (c : Dev nD) : W13 m ρ c (Proc.devRef .tc main_v58)
    = layer2 (layer1 (m ((c : Thread nD τ).loc main_arg0)) (m ((c : Thread nD τ).loc main_arg1)) (m ((c : Thread nD τ).loc main_arg2)) (m ((c : Thread nD τ).loc main_arg3)))
        (m ((c : Thread nD τ).loc main_arg1)) (m ((c : Thread nD τ).loc main_arg4)) (m ((c : Thread nD τ).loc main_arg5)) := by
  refine (W13_arr m ρ c 2).trans ((arr5 (V12 m ρ) c).trans ?_)
  show bias64 (StableHlo.after hostOps5 (W11 m ρ c) (Proc.devRef .tc main_v56)) (StableHlo.after hostOps5 (W11 m ρ c) (Proc.devRef .tc main_v57)) = _
  rw [scatter64, bias64_row, msg2_eq, W11_dst, dst_eq, W11_arg5]

/-- The run, read: every weakly fair execution terminates, the result array ends at the two layers of the arguments,
    and the arguments end as launched. -/
theorem run : θ_run defs (onTc (τ := τ) (main (F := Ideal))) ⟨m, fun _ => 0, ρ⟩ (fun r => ∀ c : Dev nD,
      r.2.mem ((c.tc : Thread nD τ).loc main_v58)
        = layer2 (layer1 (m ((c : Thread nD τ).loc main_arg0)) (m ((c : Thread nD τ).loc main_arg1)) (m ((c : Thread nD τ).loc main_arg2)) (m ((c : Thread nD τ).loc main_arg3)))
            (m ((c : Thread nD τ).loc main_arg1)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.Gcn

end
-- ==== Proof.RefMatmul.lean ====
/-
  The reference's two matrix products, read entry by entry.

  The reference multiplies the whole feature array by a weight matrix with one contraction over the 128 features:
  left axis 1 against right axis 0, no batch axis, one free axis on each side. Read at entry (r, q) of the result the
  contraction is a sum over its positions; numbering the positions 0 … 127, the left operand is read at (r, k) and
  the right at (k, q), which is the whole-array product the kernel's blocks were shown to assemble.
-/
import proofs.«131999_j66125316489524_1_alg».proof.ReferenceIdeal
import proofs.«131999_j66125316489524_1_alg».proof.Proof.Gen.ReferenceIdeal
import proofs.«131999_j66125316489524_1_alg».proof.Proof.Spec
import proofs.«131999_j66125316489524_1_alg».proof.Proof.LibContraction
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.ReferenceIdeal.Gcn

open Cert.ReferenceIdeal Cert.ReferenceIdeal.Gen Cert.Gcn Cert.Lib.Contraction

/-! ## The first layer's product -/

/-- The left operand's row coordinate is the result's row, at every contraction position. -/
theorem dot128_lhs_row (j : S50000x128.Idx) (k : dot_S50000x128_S128x128_S50000x128_1_0_0_1_n_n.contr.Idx) :
    (dot_S50000x128_S128x128_S50000x128_1_0_0_1_n_n.lhsIdx j k 0).val = (j 0).val :=
  lhs_free dot_S50000x128_S128x128_S50000x128_1_0_0_1_n_n rfl rfl j k (by decide)

/-- The left operand's column coordinate is the contraction position. -/
theorem dot128_lhs_col (j : S50000x128.Idx) (i : Fin 128) :
    (dot_S50000x128_S128x128_S50000x128_1_0_0_1_n_n.lhsIdx j
      ((contrFin dot_S50000x128_S128x128_S50000x128_1_0_0_1_n_n (cl := 1) rfl 128 rfl).symm i) 1).val = i.val :=
  lhs_contracted dot_S50000x128_S128x128_S50000x128_1_0_0_1_n_n rfl 128 rfl j i

/-- The right operand's row coordinate is the contraction position. -/
theorem dot128_rhs_row (j : S50000x128.Idx) (i : Fin 128) :
    (dot_S50000x128_S128x128_S50000x128_1_0_0_1_n_n.rhsIdx j
      ((contrFin dot_S50000x128_S128x128_S50000x128_1_0_0_1_n_n (cl := 1) rfl 128 rfl).symm i) 0).val = i.val :=
  rhs_contracted dot_S50000x128_S128x128_S50000x128_1_0_0_1_n_n rfl rfl 128 rfl j i

/-- The right operand's column coordinate is the result's column, at every contraction position. -/
theorem dot128_rhs_col (j : S50000x128.Idx) (k : dot_S50000x128_S128x128_S50000x128_1_0_0_1_n_n.contr.Idx) :
    (dot_S50000x128_S128x128_S50000x128_1_0_0_1_n_n.rhsIdx j k 1).val = (j 1).val :=
  rhs_free dot_S50000x128_S128x128_S50000x128_1_0_0_1_n_n rfl rfl rfl rfl j k (by decide)

/-- The reference's contraction is the entry-by-entry product: at entry (r, q) it is the sum over the contraction's
    128 positions of the left operand at (r, k) times the right operand at (k, q); there is no accumulator. -/
theorem dot128_eq (x : FVec Ideal S50000x128 .f32) (w : FVec Ideal S128x128 .f32) :
    Host.dotGeneral dot_S50000x128_S128x128_S50000x128_1_0_0_1_n_n none x w = matmul128 x w := by
  funext i
  obtain ⟨r, q, rfl⟩ : ∃ (r : Fin 50000) (q : Fin 128), i = ix2 r q := ⟨i 0, i 1, eq_ix2 i⟩
  refine (Ideal.dotGeneral_apply dot_S50000x128_S128x128_S50000x128_1_0_0_1_n_n none _ x w (ix2 r q)).trans ?_
  rw [sum_contr dot_S50000x128_S128x128_S50000x128_1_0_0_1_n_n (cl := 1) rfl 128 rfl]
  show _ = ∑ k : Fin 128, x (ix2 r k) * w (ix2 k q)
  refine Finset.sum_congr rfl fun k _ => ?_
  congr 2
  · funext a
    apply Fin.ext
    match a with
    | ⟨0, _⟩ => exact dot128_lhs_row _ _
    | ⟨1, _⟩ => exact dot128_lhs_col _ k
  · funext a
    apply Fin.ext
    match a with
    | ⟨0, _⟩ => exact dot128_rhs_row _ k
    | ⟨1, _⟩ => exact dot128_rhs_col _ _

/-! ## The second layer's product -/

/-- The left operand's row coordinate is the result's row, at every contraction position. -/
theorem dot64_lhs_row (j : S50000x64.Idx) (k : dot_S50000x128_S128x64_S50000x64_1_0_0_1_n_n.contr.Idx) :
    (dot_S50000x128_S128x64_S50000x64_1_0_0_1_n_n.lhsIdx j k 0).val = (j 0).val :=
  lhs_free dot_S50000x128_S128x64_S50000x64_1_0_0_1_n_n rfl rfl j k (by decide)

/-- The left operand's column coordinate is the contraction position. -/
theorem dot64_lhs_col (j : S50000x64.Idx) (i : Fin 128) :
    (dot_S50000x128_S128x64_S50000x64_1_0_0_1_n_n.lhsIdx j
      ((contrFin dot_S50000x128_S128x64_S50000x64_1_0_0_1_n_n (cl := 1) rfl 128 rfl).symm i) 1).val = i.val :=
  lhs_contracted dot_S50000x128_S128x64_S50000x64_1_0_0_1_n_n rfl 128 rfl j i

/-- The right operand's row coordinate is the contraction position. -/
theorem dot64_rhs_row (j : S50000x64.Idx) (i : Fin 128) :
    (dot_S50000x128_S128x64_S50000x64_1_0_0_1_n_n.rhsIdx j
      ((contrFin dot_S50000x128_S128x64_S50000x64_1_0_0_1_n_n (cl := 1) rfl 128 rfl).symm i) 0).val = i.val :=
  rhs_contracted dot_S50000x128_S128x64_S50000x64_1_0_0_1_n_n rfl rfl 128 rfl j i

/-- The right operand's column coordinate is the result's column, at every contraction position. -/
theorem dot64_rhs_col (j : S50000x64.Idx) (k : dot_S50000x128_S128x64_S50000x64_1_0_0_1_n_n.contr.Idx) :
    (dot_S50000x128_S128x64_S50000x64_1_0_0_1_n_n.rhsIdx j k 1).val = (j 1).val :=
  rhs_free dot_S50000x128_S128x64_S50000x64_1_0_0_1_n_n rfl rfl rfl rfl j k (by decide)

/-- The reference's contraction is the entry-by-entry product: at entry (r, q) it is the sum over the contraction's
    128 positions of the left operand at (r, k) times the right operand at (k, q); there is no accumulator. -/
theorem dot64_eq (h : FVec Ideal S50000x128 .f32) (w : FVec Ideal S128x64 .f32) :
    Host.dotGeneral dot_S50000x128_S128x64_S50000x64_1_0_0_1_n_n none h w = matmul64 h w := by
  funext i
  obtain ⟨r, q, rfl⟩ : ∃ (r : Fin 50000) (q : Fin 64), i = ix2 r q := ⟨i 0, i 1, eq_ix2 i⟩
  refine (Ideal.dotGeneral_apply dot_S50000x128_S128x64_S50000x64_1_0_0_1_n_n none _ h w (ix2 r q)).trans ?_
  rw [sum_contr dot_S50000x128_S128x64_S50000x64_1_0_0_1_n_n (cl := 1) rfl 128 rfl]
  show _ = ∑ k : Fin 128, h (ix2 r k) * w (ix2 k q)
  refine Finset.sum_congr rfl fun k _ => ?_
  congr 2
  · funext a
    apply Fin.ext
    match a with
    | ⟨0, _⟩ => exact dot64_lhs_row _ _
    | ⟨1, _⟩ => exact dot64_lhs_col _ k
  · funext a
    apply Fin.ext
    match a with
    | ⟨0, _⟩ => exact dot64_rhs_row _ k
    | ⟨1, _⟩ => exact dot64_rhs_col _ _

end Cert.ReferenceIdeal.Gcn
end
-- ==== Proof.RefScale.lean ====
import proofs.«131999_j66125316489524_1_alg».proof.ReferenceIdeal
import proofs.«131999_j66125316489524_1_alg».proof.Proof.Gen.ReferenceIdeal
import proofs.«131999_j66125316489524_1_alg».proof.Proof.Spec
import Idealize.ShloMosaic.Lib.Pipeline.Value
import Idealize.ShloMosaic.Lib.ValueIdx
import Idealize.ShloMosaic.PureOps.Ideal.Laws
noncomputable section
open Idealize.ShloMosaic Idealize.ShloMosaic.ValueIdx
namespace Cert.ReferenceIdeal.Gcn
open Cert.ReferenceIdeal Cert.ReferenceIdeal.Gen Cert.Gcn

/-- The coefficient vector spread to a column: entry (e, 0) of the column is entry e of the vector. -/
theorem col_of_vec (n : FVec Ideal S850000 .f32) (e : Fin 850000) :
    broadcastInDim S850000x1 ![0] bcast_S850000_S850000x1_0 n (ix2 e 0) = n (ix1 e) :=
  broadcastInDim_apply _ _ n (ix2 e 0) (ix1 e) fun a => by
    match a with
    | ⟨0, _⟩ => rfl

/-- The coefficient vector reshaped to a column: the column's entry (e, 0) and the vector's entry e sit at the same
    row-major position, e · 1 + 0 = e. -/
theorem col_of_cast (n : FVec Ideal S850000 .f32) (hc : S850000.ShapeCasts S850000x1) (e : Fin 850000) :
    shapeCast S850000x1 n hc (ix2 e 0) = n (ix1 e) :=
  shapeCast_apply n hc (ix2 e 0) (ix1 e) (by
    rw [Shape.rowMajor_val_one, Shape.rowMajor_val_two]
    show e.val = e.val * 1 + 0
    omega)

/-- The column spread along 128 columns: entry (e, f) is the column's entry (e, 0). -/
theorem spread128 (y : FVec Ideal S850000x1 .f32) (e : Fin 850000) (f : Fin 128) :
    broadcastInDim S850000x128 ![0, 1] bcast_S850000x1_S850000x128_0_1 y (ix2 e f) = y (ix2 e 0) :=
  broadcastInDim_apply _ _ y (ix2 e f) (ix2 e 0) fun a => by
    match a with
    | ⟨0, _⟩ => rfl
    | ⟨1, _⟩ => rfl

/-- The column spread along 64 columns: entry (e, f) is the column's entry (e, 0). -/
theorem spread64 (y : FVec Ideal S850000x1 .f32) (e : Fin 850000) (f : Fin 64) :
    broadcastInDim S850000x64 ![0, 1] bcast_S850000x1_S850000x64_0_1 y (ix2 e f) = y (ix2 e 0) :=
  broadcastInDim_apply _ _ y (ix2 e f) (ix2 e 0) fun a => by
    match a with
    | ⟨0, _⟩ => rfl
    | ⟨1, _⟩ => rfl

/-- The reference's scaling at 128 columns is the row scaling by the reshaped coefficient column: at entry (e, f)
    both are g (e, f) times the coefficient vector's entry e — on one side the vector spread to a column and the column
    spread along the columns, on the other the vector reshaped to a column and read at (e, 0). -/
theorem scale128_eq (g : FVec Ideal S850000x128 .f32) (n : FVec Ideal S850000 .f32) (hc : S850000.ShapeCasts S850000x1) :
    mulf g (broadcastInDim S850000x128 ![0, 1] bcast_S850000x1_S850000x128_0_1 (broadcastInDim S850000x1 ![0] bcast_S850000_S850000x1_0 n))
      = scale128 g (shapeCast S850000x1 n hc) := by
  funext i
  obtain ⟨e, f, rfl⟩ : ∃ (e : Fin 850000) (f : Fin 128), i = ix2 e f := ⟨i 0, i 1, eq_ix2 i⟩
  rw [mulf_apply, spread128, col_of_vec]
  show _ = g (ix2 e f) * shapeCast S850000x1 n hc (ix2 e 0)
  rw [col_of_cast]

/-- The same at 64 columns. -/
theorem scale64_eq (g : FVec Ideal S850000x64 .f32) (n : FVec Ideal S850000 .f32) (hc : S850000.ShapeCasts S850000x1) :
    mulf g (broadcastInDim S850000x64 ![0, 1] bcast_S850000x1_S850000x64_0_1 (broadcastInDim S850000x1 ![0] bcast_S850000_S850000x1_0 n))
      = scale64 g (shapeCast S850000x1 n hc) := by
  funext i
  obtain ⟨e, f, rfl⟩ : ∃ (e : Fin 850000) (f : Fin 64), i = ix2 e f := ⟨i 0, i 1, eq_ix2 i⟩
  rw [mulf_apply, spread64, col_of_vec]
  show _ = g (ix2 e f) * shapeCast S850000x1 n hc (ix2 e 0)
  rw [col_of_cast]

end Cert.ReferenceIdeal.Gcn
end
-- ==== Proof.RefBias.lean ====
import proofs.«131999_j66125316489524_1_alg».proof.ReferenceIdeal
import proofs.«131999_j66125316489524_1_alg».proof.Proof.Gen.ReferenceIdeal
import proofs.«131999_j66125316489524_1_alg».proof.Proof.Spec
import Idealize.ShloMosaic.Lib.Pipeline.Value
import Idealize.ShloMosaic.Lib.ValueIdx
import Idealize.ShloMosaic.PureOps.Ideal.Laws
noncomputable section
open Idealize.ShloMosaic Idealize.ShloMosaic.ValueIdx
namespace Cert.ReferenceIdeal.Gcn
open Cert.ReferenceIdeal Cert.ReferenceIdeal.Gen Cert.Gcn

/-! # The reference's two bias steps as whole-array functions

The reference takes the bias as a plain vector of one entry per feature, spreads it first into a one-row array and then down
all 50000 rows, and adds it to the sum array (the first layer then applies the hyperbolic tangent). Read at entry (r, f) this
is the sum array's entry (r, f) plus the bias vector's entry f. The whole-array bias step takes the bias as a one-row array;
the vector recast as one row holds entry f of the vector at place (0, f), since both have row-major position f. -/

/-- The feature vector spread to one row and then down the rows, read at (r, f), is its entry f. -/
theorem spread128_apply (b : FVec Ideal S128 .f32) (r : Fin 50000) (f : Fin 128) :
    broadcastInDim S50000x128 ![0, 1] bcast_S1x128_S50000x128_0_1 (broadcastInDim S1x128 ![1] bcast_S128_S1x128_1 b) (ix2 r f)
      = b (ix1 f) := by
  rw [broadcastInDim_apply ![0, 1] bcast_S1x128_S50000x128_0_1 _ (ix2 r f) (ix2 0 f)
      (fun a => by match a with | ⟨0, _⟩ => rfl | ⟨1, _⟩ => rfl),
    broadcastInDim_apply ![1] bcast_S128_S1x128_1 b (ix2 0 f) (ix1 f)
      (fun a => by match a with | ⟨0, _⟩ => rfl)]

/-- The feature vector recast as a one-row array, read at (0, f), is its entry f: both places have row-major position f. -/
theorem row128_apply (b : FVec Ideal S128 .f32) (hc : S128.ShapeCasts S1x128) (f : Fin 128) :
    shapeCast S1x128 b hc (ix2 0 f) = b (ix1 f) := by
  refine shapeCast_apply b hc (ix2 0 f) (ix1 f) ?_
  rw [Shape.rowMajor_val_one, Shape.rowMajor_val_two]
  show f.val = 0 * 128 + f.val
  omega

/-- The first layer's bias step of the reference is the whole-array bias-and-tanh at the bias recast as one row. -/
theorem biasTanh_eq (a : FVec Ideal S50000x128 .f32) (b : FVec Ideal S128 .f32) (hc : S128.ShapeCasts S1x128) :
    Host.tanh (addf a (broadcastInDim S50000x128 ![0, 1] bcast_S1x128_S50000x128_0_1 (broadcastInDim S1x128 ![1] bcast_S128_S1x128_1 b)))
      = biasTanh a (shapeCast S1x128 b hc) := by
  funext i
  obtain ⟨r, f, rfl⟩ : ∃ (r : Fin 50000) (f : Fin 128), i = ix2 r f := ⟨i 0, i 1, eq_ix2 i⟩
  show Ideal.tanh (a (ix2 r f)
      + broadcastInDim S50000x128 ![0, 1] bcast_S1x128_S50000x128_0_1 (broadcastInDim S1x128 ![1] bcast_S128_S1x128_1 b) (ix2 r f))
    = Ideal.tanh (a (ix2 r f) + shapeCast S1x128 b hc (ix2 0 f))
  rw [spread128_apply, row128_apply]

/-- The same two readings at 64 features. -/
theorem spread64_apply (b : FVec Ideal S64 .f32) (r : Fin 50000) (f : Fin 64) :
    broadcastInDim S50000x64 ![0, 1] bcast_S1x64_S50000x64_0_1 (broadcastInDim S1x64 ![1] bcast_S64_S1x64_1 b) (ix2 r f)
      = b (ix1 f) := by
  rw [broadcastInDim_apply ![0, 1] bcast_S1x64_S50000x64_0_1 _ (ix2 r f) (ix2 0 f)
      (fun a => by match a with | ⟨0, _⟩ => rfl | ⟨1, _⟩ => rfl),
    broadcastInDim_apply ![1] bcast_S64_S1x64_1 b (ix2 0 f) (ix1 f)
      (fun a => by match a with | ⟨0, _⟩ => rfl)]

theorem row64_apply (b : FVec Ideal S64 .f32) (hc : S64.ShapeCasts S1x64) (f : Fin 64) :
    shapeCast S1x64 b hc (ix2 0 f) = b (ix1 f) := by
  refine shapeCast_apply b hc (ix2 0 f) (ix1 f) ?_
  rw [Shape.rowMajor_val_one, Shape.rowMajor_val_two]
  show f.val = 0 * 64 + f.val
  omega

/-- The second layer's bias step of the reference is the whole-array bias at the bias recast as one row. -/
theorem bias64_eq (a : FVec Ideal S50000x64 .f32) (b : FVec Ideal S64 .f32) (hc : S64.ShapeCasts S1x64) :
    addf a (broadcastInDim S50000x64 ![0, 1] bcast_S1x64_S50000x64_0_1 (broadcastInDim S1x64 ![1] bcast_S64_S1x64_1 b))
      = bias64 a (shapeCast S1x64 b hc) := by
  funext i
  obtain ⟨r, f, rfl⟩ : ∃ (r : Fin 50000) (f : Fin 64), i = ix2 r f := ⟨i 0, i 1, eq_ix2 i⟩
  show a (ix2 r f)
      + broadcastInDim S50000x64 ![0, 1] bcast_S1x64_S50000x64_0_1 (broadcastInDim S1x64 ![1] bcast_S64_S1x64_1 b) (ix2 r f)
    = a (ix2 r f) + shapeCast S1x64 b hc (ix2 0 f)
  rw [spread64_apply, row64_apply]

end Cert.ReferenceIdeal.Gcn
end
-- ==== Proof.lean ====
/-
  A two-layer graph convolution as six tiled dense regions among host gathers and sums, against the same network
  written whole.

  Both programs build the same edge lists, degrees and per-edge coefficients with the same operations, gather the
  same rows and add them into the same nodes. They differ in the three dense steps of each layer: the kernel
  multiplies by the weights 5000 rows at a time, scales the gathered rows 17000 edges at a time against a one-column
  coefficient array, and adds the bias (and applies the hyperbolic tangent) 5000 rows at a time, where the reference
  does each step on the whole array. On the extended reals a change of float format is the identity and a matrix
  product is a plain sum of products, so each tiled step is the whole step, entry by entry; no law that needs a finite
  value is used, and the precondition is never opened.

  The idealized kernel's result is read back through its thirteen segments to the two layers of its six arguments
  (KernelValue); the reference's result term is rewritten to the same two layers by the six whole-array equations
  (RefMatmul, RefScale, RefBias); the frames are the generated ones; the idealization rewrote nothing.
-/
import proofs.«131999_j66125316489524_1_alg».proof.Defs
import proofs.«131999_j66125316489524_1_alg».proof.Proof.Gen.Kernel
import proofs.«131999_j66125316489524_1_alg».proof.Proof.Gen.Kernel.Frame
import proofs.«131999_j66125316489524_1_alg».proof.Proof.Gen.KernelIdeal
import proofs.«131999_j66125316489524_1_alg».proof.Proof.Gen.KernelIdeal.Frame
import proofs.«131999_j66125316489524_1_alg».proof.Proof.Gen.ReferenceIdeal
import proofs.«131999_j66125316489524_1_alg».proof.Proof.Gen.Pre_finite_inputs
import proofs.«131999_j66125316489524_1_alg».proof.Proof.KernelValue
import proofs.«131999_j66125316489524_1_alg».proof.Proof.RefRun
import proofs.«131999_j66125316489524_1_alg».proof.Proof.RefMatmul
import proofs.«131999_j66125316489524_1_alg».proof.Proof.RefScale
import proofs.«131999_j66125316489524_1_alg».proof.Proof.RefBias
import Idealize.ShloMosaic.Adequacy
import Idealize.ShloMosaic.Init

set_option maxRecDepth 16384

noncomputable section

namespace Cert.Proof

open Idealize.ShloMosaic Idealize.ShloMosaic.TcCoe Idealize.SL.Sem

/-- The reference's result, as a term of its arguments, is the two layers of those arguments: its two whole matrix
    products, its two scalings by the broadcast coefficients and its two bias steps are the entry-by-entry functions the
    kernel's regions compute, and everything else is the same operation on both sides. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v90 (F := Ideal) m' c
      = Cert.KernelIdeal.Gcn.layer2
          (Cert.KernelIdeal.Gcn.layer1 (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3)))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  unfold Cert.ReferenceIdeal.ValueP.res_main_v90
  rw [Cert.ReferenceIdeal.Gcn.dot128_eq,
    Cert.ReferenceIdeal.Gcn.scale128_eq _ _ Cert.KernelIdeal.Gen.shapeCasts_S850000_S850000x1,
    Cert.ReferenceIdeal.Gcn.biasTanh_eq _ _ Cert.KernelIdeal.Gen.shapeCasts_S128_S1x128,
    Cert.ReferenceIdeal.Gcn.dot64_eq,
    Cert.ReferenceIdeal.Gcn.scale64_eq _ _ Cert.KernelIdeal.Gen.shapeCasts_S850000_S850000x1,
    Cert.ReferenceIdeal.Gcn.bias64_eq _ _ Cert.KernelIdeal.Gen.shapeCasts_S64_S1x64]
  rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end at the two layers of those arguments. -/
theorem algebraic : Cert.algebraic_KernelIdeal_ReferenceIdeal := by
  intro m ρ m' ρ' _ hagree
  refine ⟨_, Cert.KernelIdeal.Gcn.run m ρ, ?_⟩
  refine (θ_run Cert.ReferenceIdeal.defs _ _).mono (fun _ h c => ⟨(h c).1.trans ?_, (h c).2⟩)
    (Cert.ReferenceIdeal.ValueP.run (F := Ideal) m' ρ')
  rw [ref_result]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
